-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x26 : Shape := ⟨3, ![32, 64, 26]⟩
abbrev S32x256 : Shape := ⟨2, ![32, 256]⟩
abbrev S512x52 : Shape := ⟨2, ![512, 52]⟩
abbrev S512 : Shape := ⟨1, ![512]⟩
abbrev S512x512 : Shape := ⟨2, ![512, 512]⟩
abbrev S512x768 : Shape := ⟨2, ![512, 768]⟩
abbrev S28x512 : Shape := ⟨2, ![28, 512]⟩
abbrev S28 : Shape := ⟨1, ![28]⟩
abbrev S_ : Shape := ⟨0, ![]⟩

class Facts : Prop where
  bcast_S_S32x64x26 : S_.BroadcastsInDim S32x64x26 (![] : Fin 0 → Fin S32x64x26.rank)
  reducesTo_S32x64x26_S_d0_1_2 : S32x64x26.ReducesTo [0, 1, 2] S_
  h_S_ : 0 < S_.numel
  bcast_S_S32x256 : S_.BroadcastsInDim S32x256 (![] : Fin 0 → Fin S32x256.rank)
  reducesTo_S32x256_S_d0_1 : S32x256.ReducesTo [0, 1] S_
  bcast_S_S512x52 : S_.BroadcastsInDim S512x52 (![] : Fin 0 → Fin S512x52.rank)
  reducesTo_S512x52_S_d0_1 : S512x52.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x768 : S_.BroadcastsInDim S512x768 (![] : Fin 0 → Fin S512x768.rank)
  reducesTo_S512x768_S_d0_1 : S512x768.ReducesTo [0, 1] S_
  bcast_S_S28x512 : S_.BroadcastsInDim S28x512 (![] : Fin 0 → Fin S28x512.rank)
  reducesTo_S28x512_S_d0_1 : S28x512.ReducesTo [0, 1] S_
  bcast_S_S28 : S_.BroadcastsInDim S28 (![] : Fin 0 → Fin S28.rank)
  reducesTo_S28_S_d0 : S28.ReducesTo [0] S_

variable [Facts]

def fn_part4 {F : FTy → Type} [FloatOps F] (main_arg14 : FVec F S28x512 .f32) (main_arg15 : FVec F S28 .f32) (main_v63 : IVec S_ 1) (main_v67 : IVec S_ 1) : IVec S_ 1 :=
  let main_v68 : IVec S_ 1 := andi main_v63 main_v67
  let main_v69 : FVec F S28x512 .f32 := Host.absf main_arg14
  let main_cst_26 : FVec F S_ .f32 := constant S_ .f32 0x7F800000#32
  let main_v70 : FVec F S28x512 .f32 := broadcastInDim S28x512 ![] bcast_S_S28x512 main_cst_26
  let main_v71 : IVec S28x512 1 := cmpf .olt main_v69 main_v70
  let main_c_27 : IVec S_ 1 := constantI S_ 1 1#1
  let main_v72 : IVec S_ 1 := (fun x v => Host.reduce IntOp.andi x v reducesTo_S28x512_S_d0_1 h_S_) main_v71 main_c_27
  let main_v73 : IVec S_ 1 := andi main_v68 main_v72
  let main_v74 : FVec F S28 .f32 := Host.absf main_arg15
  let main_cst_28 : FVec F S_ .f32 := constant S_ .f32 0x7F800000#32
  let main_v75 : FVec F S28 .f32 := broadcastInDim S28 ![] bcast_S_S28 main_cst_28
  let main_v76 : IVec S28 1 := cmpf .olt main_v74 main_v75
  let main_c_29 : IVec S_ 1 := constantI S_ 1 1#1
  let main_v77 : IVec S_ 1 := (fun x v => Host.reduce IntOp.andi x v reducesTo_S28_S_d0 h_S_) main_v76 main_c_29
  let main_v78 : IVec S_ 1 := andi main_v73 main_v77
  main_v78

def fn_part3 {F : FTy → Type} [FloatOps F] (main_arg11 : FVec F S512 .f32) (main_arg12 : FVec F S512x512 .f32) (main_arg13 : FVec F S512 .f32) (main_arg14 : FVec F S28x512 .f32) (main_arg15 : FVec F S28 .f32) (main_v48 : IVec S_ 1) (main_v49 : FVec F S512x768 .f32) (main_v50 : FVec F S512x768 .f32) : IVec S_ 1 :=
  let main_v51 : IVec S512x768 1 := cmpf .olt main_v49 main_v50
  let main_c_19 : IVec S_ 1 := constantI S_ 1 1#1
  let main_v52 : IVec S_ 1 := (fun x v => Host.reduce IntOp.andi x v reducesTo_S512x768_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S512 .f32) (main_arg8 : FVec F S512x512 .f32) (main_arg9 : FVec F S512 .f32) (main_arg10 : FVec F S512x768 .f32) (main_arg11 : FVec F S512 .f32) (main_arg12 : FVec F S512x512 .f32) (main_arg13 : FVec F S512 .f32) (main_arg14 : FVec F S28x512 .f32) (main_arg15 : FVec F S28 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x768 .f32 := Host.absf main_arg10
  let main_cst_18 : FVec F S_ .f32 := constant S_ .f32 0x7F800000#32
  let main_v50 : FVec F S512x768 .f32 := broadcastInDim S512x768 ![] bcast_S_S512x768 main_cst_18
  fn_part3 (F := F) main_arg11 main_arg12 main_arg13 main_arg14 main_arg15 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x768 .f32) (main_arg11 : FVec F S512 .f32) (main_arg12 : FVec F S512x512 .f32) (main_arg13 : FVec F S512 .f32) (main_arg14 : FVec F S28x512 .f32) (main_arg15 : FVec F S28 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S32x64x26 .f32) (main_arg1 : FVec F S32x256 .f32) (main_arg2 : FVec F S512x52 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x768 .f32) (main_arg11 : FVec F S512 .f32) (main_arg12 : FVec F S512x512 .f32) (main_arg13 : FVec F S512 .f32) (main_arg14 : FVec F S28x512 .f32) (main_arg15 : FVec F S28 .f32) : IVec S_ 1 :=
  let main_v0 : FVec F S32x64x26 .f32 := Host.absf main_arg0
  let main_cst : FVec F S_ .f32 := constant S_ .f32 0x7F800000#32
  let main_v1 : FVec F S32x64x26 .f32 := broadcastInDim S32x64x26 ![] bcast_S_S32x64x26 main_cst
  let main_v2 : IVec S32x64x26 1 := cmpf .olt main_v0 main_v1
  let main_c : IVec S_ 1 := constantI S_ 1 1#1
  let main_v3 : IVec S_ 1 := (fun x v => Host.reduce IntOp.andi x v reducesTo_S32x64x26_S_d0_1_2 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S512x52 .f32 := Host.absf main_arg2
  let main_cst_2 : FVec F S_ .f32 := constant S_ .f32 0x7F800000#32
  let main_v10 : FVec F S512x52 .f32 := broadcastInDim S512x52 ![] bcast_S_S512x52 main_cst_2
  let main_v11 : IVec S512x52 1 := cmpf .olt main_v9 main_v10
  let main_c_3 : IVec S_ 1 := constantI S_ 1 1#1
  let main_v12 : IVec S_ 1 := (fun x v => Host.reduce IntOp.andi x v reducesTo_S512x52_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S32x64x26 : Shape := ⟨3, ![32, 64, 26]⟩
abbrev S32x256 : Shape := ⟨2, ![32, 256]⟩
abbrev S512x52 : Shape := ⟨2, ![512, 52]⟩
abbrev S512 : Shape := ⟨1, ![512]⟩
abbrev S512x512 : Shape := ⟨2, ![512, 512]⟩
abbrev S512x768 : Shape := ⟨2, ![512, 768]⟩
abbrev S28x512 : Shape := ⟨2, ![28, 512]⟩
abbrev S28 : Shape := ⟨1, ![28]⟩
abbrev S32x1x256 : Shape := ⟨3, ![32, 1, 256]⟩
abbrev S32x1x28 : Shape := ⟨3, ![32, 1, 28]⟩
abbrev S1x64x26 : Shape := ⟨3, ![1, 64, 26]⟩
abbrev S1x1x256 : Shape := ⟨3, ![1, 1, 256]⟩
abbrev S1x1x28 : Shape := ⟨3, ![1, 1, 28]⟩
abbrev S64x26 : Shape := ⟨2, ![64, 26]⟩
abbrev S64x64x26 : Shape := ⟨3, ![64, 64, 26]⟩
abbrev S64x1x26 : Shape := ⟨3, ![64, 1, 26]⟩
abbrev S64x64x52 : Shape := ⟨3, ![64, 64, 52]⟩
abbrev S4096x52 : Shape := ⟨2, ![4096, 52]⟩
abbrev S4096x512 : Shape := ⟨2, ![4096, 512]⟩
abbrev S1x512 : Shape := ⟨2, ![1, 512]⟩
abbrev S1x256 : Shape := ⟨2, ![1, 256]⟩
abbrev S1x768 : Shape := ⟨2, ![1, 768]⟩
abbrev S1x28 : Shape := ⟨2, ![1, 28]⟩
abbrev S1 : Shape := ⟨1, ![1]⟩
abbrev S1x1 : Shape := ⟨2, ![1, 1]⟩
abbrev S32x28 : Shape := ⟨2, ![32, 28]⟩

abbrev nBuf : Space → Nat
  | .hbm => 28
  | .vmem => 20
  | .smem => 0
  | _ => 0

abbrev bufTy : (tb : Table) → Fin (tcTables nBuf tb) → BufTy
  | .hbm, ⟨0, _⟩ => ⟨S32x64x26, .f32⟩
  | .hbm, ⟨1, _⟩ => ⟨S32x256, .f32⟩
  | .hbm, ⟨2, _⟩ => ⟨S512x52, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x768, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S28x512, .f32⟩
  | .hbm, ⟨15, _⟩ => ⟨S28, .f32⟩
  | .hbm, ⟨16, _⟩ => ⟨S32x64x26, .bf16⟩
  | .hbm, ⟨17, _⟩ => ⟨S32x256, .bf16⟩
  | .hbm, ⟨18, _⟩ => ⟨S32x1x256, .bf16⟩
  | .hbm, ⟨19, _⟩ => ⟨S512x52, .bf16⟩
  | .hbm, ⟨20, _⟩ => ⟨S512x512, .bf16⟩
  | .hbm, ⟨21, _⟩ => ⟨S512x512, .bf16⟩
  | .hbm, ⟨22, _⟩ => ⟨S512x512, .bf16⟩
  | .hbm, ⟨23, _⟩ => ⟨S512x768, .bf16⟩
  | .hbm, ⟨24, _⟩ => ⟨S512x512, .bf16⟩
  | .hbm, ⟨25, _⟩ => ⟨S28x512, .bf16⟩
  | .hbm, ⟨26, _⟩ => ⟨S32x1x28, .f32⟩
  | .hbm, ⟨27, _⟩ => ⟨S32x28, .f32⟩
  | .local _ .vmem, ⟨0, _⟩ => ⟨S1x64x26, .bf16⟩
  | .local _ .vmem, ⟨1, _⟩ => ⟨S1x64x26, .bf16⟩
  | .local _ .vmem, ⟨2, _⟩ => ⟨S1x1x256, .bf16⟩
  | .local _ .vmem, ⟨3, _⟩ => ⟨S1x1x256, .bf16⟩
  | .local _ .vmem, ⟨4, _⟩ => ⟨S512x52, .bf16⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S512x512, .bf16⟩
  | .local _ .vmem, ⟨9, _⟩ => ⟨S512, .f32⟩
  | .local _ .vmem, ⟨10, _⟩ => ⟨S512x512, .bf16⟩
  | .local _ .vmem, ⟨11, _⟩ => ⟨S512, .f32⟩
  | .local _ .vmem, ⟨12, _⟩ => ⟨S512x768, .bf16⟩
  | .local _ .vmem, ⟨13, _⟩ => ⟨S512, .f32⟩
  | .local _ .vmem, ⟨14, _⟩ => ⟨S512x512, .bf16⟩
  | .local _ .vmem, ⟨15, _⟩ => ⟨S512, .f32⟩
  | .local _ .vmem, ⟨16, _⟩ => ⟨S28x512, .bf16⟩
  | .local _ .vmem, ⟨17, _⟩ => ⟨S28, .f32⟩
  | .local _ .vmem, ⟨18, _⟩ => ⟨S1x1x28, .f32⟩
  | .local _ .vmem, ⟨19, _⟩ => ⟨S1x1x28, .f32⟩
  | _, _ => ⟨S32x64x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x26 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x52 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S28x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S28 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1x28 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bitsLt_bf16_f32 : FTy.bits .bf16 < FTy.bits .f32
  shapeCasts_S32x256_S32x1x256 : S32x256.ShapeCasts S32x1x256
  inb_S1x64x26_S1x64x26_0_0_0 : ∀ a, (![0, 0, 0] : Fin 3 → Nat) a + S1x64x26.size a ≤ S1x64x26.size a
  h_S1x64x26 : 0 < S1x64x26.numel
  shapeCasts_S1x64x26_S64x26 : S1x64x26.ShapeCasts S64x26
  shapeCasts_S64x26_S1x64x26 : S64x26.ShapeCasts S1x64x26
  shapeCasts_S1x64x26_S1x64x26 : S1x64x26.ShapeCasts S1x64x26
  broadcasts_S1x64x26_S64x64x26 : S1x64x26.Broadcasts S64x64x26
  shapeCasts_S64x26_S64x1x26 : S64x26.ShapeCasts S64x1x26
  shapeCasts_S64x1x26_S64x1x26 : S64x1x26.ShapeCasts S64x1x26
  broadcasts_S64x1x26_S64x64x26 : S64x1x26.Broadcasts S64x64x26
  concatenates_S64x64x26_S64x64x26_S64x64x52_d2 : Shape.Concatenates [S64x64x26, S64x64x26] S64x64x52 2
  shapeCasts_S64x64x52_S4096x52 : S64x64x52.ShapeCasts S4096x52
  inb_S512x52_S512x52_0_0 : ∀ a, (![0, 0] : Fin 2 → Nat) a + S512x52.size a ≤ S512x52.size a
  h_S512x52 : 0 < S512x52.numel
  shapeCasts_S512x52_S512x52 : S512x52.ShapeCasts S512x52
  inb_S512_S512_0 : ∀ a, (![0] : Fin 1 → Nat) a + S512.size a ≤ S512.size a
  h_S512 : 0 < S512.numel
  shapeCasts_S512_S1x512 : S512.ShapeCasts S1x512
  broadcasts_S1x512_S4096x512 : S1x512.Broadcasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S4096x512_S512 : S4096x512.Reduces [0] S512
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  concatenates_S1x512_S1x256_S1x768_d1 : Shape.Concatenates [S1x512, S1x256] S1x768 1
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S28x512_S28x512_0_0 : ∀ a, (![0, 0] : Fin 2 → Nat) a + S28x512.size a ≤ S28x512.size a
  h_S28x512 : 0 < S28x512.numel
  shapeCasts_S28x512_S28x512 : S28x512.ShapeCasts S28x512
  inb_S28_S28_0 : ∀ a, (![0] : Fin 1 → Nat) a + S28.size a ≤ S28.size a
  h_S28 : 0 < S28.numel
  shapeCasts_S28_S1x28 : S28.ShapeCasts S1x28
  reduces_S1x28_S1 : S1x28.Reduces [1] S1
  shapeCasts_S1_S1x1 : S1.ShapeCasts S1x1
  broadcasts_S1x1_S1x28 : S1x1.Broadcasts S1x28
  inb_S1x1x28_S1x1x28_0_0_0 : ∀ a, (![0, 0, 0] : Fin 3 → Nat) a + S1x1x28.size a ≤ S1x1x28.size a
  h_S1x1x28 : 0 < S1x1x28.numel
  shapeCasts_S1x1x28_S1x28 : S1x1x28.ShapeCasts S1x28
  shapeCasts_S1x28_S1x1x28 : S1x28.ShapeCasts S1x1x28
  shapeCasts_S32x1x28_S32x28 : S32x1x28.ShapeCasts S32x28
  dot_S4096x52_S512x52_S4096x512_1_1_0_0_n_n_wf : DotDims.WF S4096x52 S512x52 S4096x512 [1] [1] [0] [0] [] []
  dot_S4096x512_S512x512_S4096x512_1_1_0_0_n_n_wf : DotDims.WF S4096x512 S512x512 S4096x512 [1] [1] [0] [0] [] []
  dot_S1x768_S512x768_S1x512_1_1_0_0_n_n_wf : DotDims.WF S1x768 S512x768 S1x512 [1] [1] [0] [0] [] []
  dot_S1x512_S512x512_S1x512_1_1_0_0_n_n_wf : DotDims.WF S1x512 S512x512 S1x512 [1] [1] [0] [0] [] []
  dot_S1x512_S28x512_S1x28_1_1_0_0_n_n_wf : DotDims.WF S1x512 S28x512 S1x28 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x26.size a ≤ S32x64x26.size a
  hwx0_0 : ∀ i : grid0.Coords, EltTy.bits .bf16 = 32 ∨ (Rect.block (s := S32x64x26) S1x64x26.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S32x1x256.size a
  hwx0_1 : ∀ i : grid0.Coords, EltTy.bits .bf16 = 32 ∨ (Rect.block (s := S32x1x256) S1x1x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x52.size a ≤ S512x52.size a
  hwx0_2 : ∀ i : grid0.Coords, EltTy.bits .bf16 = 32 ∨ (Rect.block (s := S512x52) S512x52.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x768.size a ≤ S512x768.size a
  hwx0_10 : ∀ i : grid0.Coords, EltTy.bits .bf16 = 32 ∨ (Rect.block (s := S512x768) S512x768.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S28x512.size a ≤ S28x512.size a
  hwx0_14 : ∀ i : grid0.Coords, EltTy.bits .bf16 = 32 ∨ (Rect.block (s := S28x512) S28x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S28.size a ≤ S28.size a
  hwx0_15 : ∀ i : grid0.Coords, EltTy.bits .f32 = 32 ∨ (Rect.block (s := S28) S28.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1x28.size a ≤ S32x1x28.size a
  hwx0_16 : ∀ i : grid0.Coords, EltTy.bits .f32 = 32 ∨ (Rect.block (s := S32x1x28) S1x1x28.size (cc0_transform_16 i) (hinb0_16 i)).WholeWords (EltTy.packing .f32)

variable [Facts₀]

def dot_S4096x52_S512x52_S4096x512_1_1_0_0_n_n : DotDims S4096x52 S512x52 S4096x512 where
  lhsContracting := [1]
  rhsContracting := [1]
  lhsNonContracting := [0]
  rhsNonContracting := [0]
  lhsBatch := []
  rhsBatch := []
  wf := dot_S4096x52_S512x52_S4096x512_1_1_0_0_n_n_wf
def dot_S4096x512_S512x512_S4096x512_1_1_0_0_n_n : DotDims S4096x512 S512x512 S4096x512 where
  lhsContracting := [1]
  rhsContracting := [1]
  lhsNonContracting := [0]
  rhsNonContracting := [0]
  lhsBatch := []
  rhsBatch := []
  wf := dot_S4096x512_S512x512_S4096x512_1_1_0_0_n_n_wf
def dot_S1x768_S512x768_S1x512_1_1_0_0_n_n : DotDims S1x768 S512x768 S1x512 where
  lhsContracting := [1]
  rhsContracting := [1]
  lhsNonContracting := [0]
  rhsNonContracting := [0]
  lhsBatch := []
  rhsBatch := []
  wf := dot_S1x768_S512x768_S1x512_1_1_0_0_n_n_wf
def dot_S1x512_S512x512_S1x512_1_1_0_0_n_n : DotDims S1x512 S512x512 S1x512 where
  lhsContracting := [1]
  rhsContracting := [1]
  lhsNonContracting := [0]
  rhsNonContracting := [0]
  lhsBatch := []
  rhsBatch := []
  wf := dot_S1x512_S512x512_S1x512_1_1_0_0_n_n_wf
def dot_S1x512_S28x512_S1x28_1_1_0_0_n_n : DotDims S1x512 S28x512 S1x28 where
  lhsContracting := [1]
  rhsContracting := [1]
  lhsNonContracting := [0]
  rhsNonContracting := [0]
  lhsBatch := []
  rhsBatch := []
  wf := dot_S1x512_S28x512_S1x28_1_1_0_0_n_n_wf

abbrev win0_0 : Pipeline.Window sig grid0 :=
  Pipeline.Window.ofSpec (Memref.whole main_v0) S1x64x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x52.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S512x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S28x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S28.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v10) S1x1x28.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S32x64x26 : Shape := ⟨3, ![32, 64, 26]⟩
abbrev S32x256 : Shape := ⟨2, ![32, 256]⟩
abbrev S512x52 : Shape := ⟨2, ![512, 52]⟩
abbrev S512 : Shape := ⟨1, ![512]⟩
abbrev S512x512 : Shape := ⟨2, ![512, 512]⟩
abbrev S512x768 : Shape := ⟨2, ![512, 768]⟩
abbrev S28x512 : Shape := ⟨2, ![28, 512]⟩
abbrev S28 : Shape := ⟨1, ![28]⟩
abbrev S32x1x64x26 : Shape := ⟨4, ![32, 1, 64, 26]⟩
abbrev S32x64x64x26 : Shape := ⟨4, ![32, 64, 64, 26]⟩
abbrev S32x64x1x26 : Shape := ⟨4, ![32, 64, 1, 26]⟩
abbrev S32x64x64x52 : Shape := ⟨4, ![32, 64, 64, 52]⟩
abbrev S131072x52 : Shape := ⟨2, ![131072, 52]⟩
abbrev S52x512 : Shape := ⟨2, ![52, 512]⟩
abbrev S131072x512 : Shape := ⟨2, ![131072, 512]⟩
abbrev S1x512 : Shape := ⟨2, ![1, 512]⟩
abbrev S_ : Shape := ⟨0, ![]⟩
abbrev S32x4096x512 : Shape := ⟨3, ![32, 4096, 512]⟩
abbrev S32x512 : Shape := ⟨2, ![32, 512]⟩
abbrev S32x768 : Shape := ⟨2, ![32, 768]⟩
abbrev S768x512 : Shape := ⟨2, ![768, 512]⟩
abbrev S512x28 : Shape := ⟨2, ![512, 28]⟩
abbrev S32x28 : Shape := ⟨2, ![32, 28]⟩
abbrev S1x28 : Shape := ⟨2, ![1, 28]⟩
abbrev S32 : Shape := ⟨1, ![32]⟩
abbrev S32x1 : Shape := ⟨2, ![32, 1]⟩

abbrev nBuf : Space → Nat
  | .hbm => 94
  | .vmem => 0
  | .smem => 0
  | _ => 0

abbrev bufTy : (tb : Table) → Fin (tcTables nBuf tb) → BufTy
  | .hbm, ⟨0, _⟩ => ⟨S32x64x26, .f32⟩
  | .hbm, ⟨1, _⟩ => ⟨S32x256, .f32⟩
  | .hbm, ⟨2, _⟩ => ⟨S512x52, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x768, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S28x512, .f32⟩
  | .hbm, ⟨15, _⟩ => ⟨S28, .f32⟩
  | .hbm, ⟨16, _⟩ => ⟨S32x1x64x26, .f32⟩
  | .hbm, ⟨17, _⟩ => ⟨S32x64x64x26, .f32⟩
  | .hbm, ⟨18, _⟩ => ⟨S32x64x1x26, .f32⟩
  | .hbm, ⟨19, _⟩ => ⟨S32x64x64x26, .f32⟩
  | .hbm, ⟨20, _⟩ => ⟨S32x64x64x52, .f32⟩
  | .hbm, ⟨21, _⟩ => ⟨S131072x52, .f32⟩
  | .hbm, ⟨22, _⟩ => ⟨S52x512, .f32⟩
  | .hbm, ⟨23, _⟩ => ⟨S131072x512, .f32⟩
  | .hbm, ⟨24, _⟩ => ⟨S1x512, .f32⟩
  | .hbm, ⟨25, _⟩ => ⟨S131072x512, .f32⟩
  | .hbm, ⟨26, _⟩ => ⟨S131072x512, .f32⟩
  | .hbm, ⟨27, _⟩ => ⟨S_, .f32⟩
  | .hbm, ⟨28, _⟩ => ⟨S131072x512, .f32⟩
  | .hbm, ⟨29, _⟩ => ⟨S131072x512, .f32⟩
  | .hbm, ⟨30, _⟩ => ⟨S512x512, .f32⟩
  | .hbm, ⟨31, _⟩ => ⟨S131072x512, .f32⟩
  | .hbm, ⟨32, _⟩ => ⟨S1x512, .f32⟩
  | .hbm, ⟨33, _⟩ => ⟨S131072x512, .f32⟩
  | .hbm, ⟨34, _⟩ => ⟨S131072x512, .f32⟩
  | .hbm, ⟨35, _⟩ => ⟨S_, .f32⟩
  | .hbm, ⟨36, _⟩ => ⟨S131072x512, .f32⟩
  | .hbm, ⟨37, _⟩ => ⟨S131072x512, .f32⟩
  | .hbm, ⟨38, _⟩ => ⟨S512x512, .f32⟩
  | .hbm, ⟨39, _⟩ => ⟨S131072x512, .f32⟩
  | .hbm, ⟨40, _⟩ => ⟨S1x512, .f32⟩
  | .hbm, ⟨41, _⟩ => ⟨S131072x512, .f32⟩
  | .hbm, ⟨42, _⟩ => ⟨S131072x512, .f32⟩
  | .hbm, ⟨43, _⟩ => ⟨S_, .f32⟩
  | .hbm, ⟨44, _⟩ => ⟨S131072x512, .f32⟩
  | .hbm, ⟨45, _⟩ => ⟨S131072x512, .f32⟩
  | .hbm, ⟨46, _⟩ => ⟨S512x512, .f32⟩
  | .hbm, ⟨47, _⟩ => ⟨S131072x512, .f32⟩
  | .hbm, ⟨48, _⟩ => ⟨S1x512, .f32⟩
  | .hbm, ⟨49, _⟩ => ⟨S131072x512, .f32⟩
  | .hbm, ⟨50, _⟩ => ⟨S131072x512, .f32⟩
  | .hbm, ⟨51, _⟩ => ⟨S_, .f32⟩
  | .hbm, ⟨52, _⟩ => ⟨S131072x512, .f32⟩
  | .hbm, ⟨53, _⟩ => ⟨S131072x512, .f32⟩
  | .hbm, ⟨54, _⟩ => ⟨S32x4096x512, .f32⟩
  | .hbm, ⟨55, _⟩ => ⟨S_, .f32⟩
  | .hbm, ⟨56, _⟩ => ⟨S32x512, .f32⟩
  | .hbm, ⟨57, _⟩ => ⟨S32x768, .f32⟩
  | .hbm, ⟨58, _⟩ => ⟨S768x512, .f32⟩
  | .hbm, ⟨59, _⟩ => ⟨S32x512, .f32⟩
  | .hbm, ⟨60, _⟩ => ⟨S1x512, .f32⟩
  | .hbm, ⟨61, _⟩ => ⟨S32x512, .f32⟩
  | .hbm, ⟨62, _⟩ => ⟨S32x512, .f32⟩
  | .hbm, ⟨63, _⟩ => ⟨S_, .f32⟩
  | .hbm, ⟨64, _⟩ => ⟨S32x512, .f32⟩
  | .hbm, ⟨65, _⟩ => ⟨S32x512, .f32⟩
  | .hbm, ⟨66, _⟩ => ⟨S512x512, .f32⟩
  | .hbm, ⟨67, _⟩ => ⟨S32x512, .f32⟩
  | .hbm, ⟨68, _⟩ => ⟨S1x512, .f32⟩
  | .hbm, ⟨69, _⟩ => ⟨S32x512, .f32⟩
  | .hbm, ⟨70, _⟩ => ⟨S32x512, .f32⟩
  | .hbm, ⟨71, _⟩ => ⟨S_, .f32⟩
  | .hbm, ⟨72, _⟩ => ⟨S32x512, .f32⟩
  | .hbm, ⟨73, _⟩ => ⟨S32x512, .f32⟩
  | .hbm, ⟨74, _⟩ => ⟨S512x28, .f32⟩
  | .hbm, ⟨75, _⟩ => ⟨S32x28, .f32⟩
  | .hbm, ⟨76, _⟩ => ⟨S1x28, .f32⟩
  | .hbm, ⟨77, _⟩ => ⟨S32x28, .f32⟩
  | .hbm, ⟨78, _⟩ => ⟨S32x28, .f32⟩
  | .hbm, ⟨79, _⟩ => ⟨S_, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S32x1, .f32⟩
  | .hbm, ⟨85, _⟩ => ⟨S32x28, .f32⟩
  | .hbm, ⟨86, _⟩ => ⟨S32x28, .f32⟩
  | .hbm, ⟨87, _⟩ => ⟨S32x28, .f32⟩
  | .hbm, ⟨88, _⟩ => ⟨S_, .f32⟩
  | .hbm, ⟨89, _⟩ => ⟨S32, .f32⟩
  | .hbm, ⟨90, _⟩ => ⟨S32x1, .f32⟩
  | .hbm, ⟨91, _⟩ => ⟨S32x1, .f32⟩
  | .hbm, ⟨92, _⟩ => ⟨S32x28, .f32⟩
  | .hbm, ⟨93, _⟩ => ⟨S32x28, .f32⟩
  | _, _ => ⟨S32x64x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call0_cst : Ref sig .tc := ⟨.hbm, 27, rfl⟩
abbrev main_call0_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_cst : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call2_cst : Ref sig .tc := ⟨.hbm, 43, rfl⟩
abbrev main_call2_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call3_cst : Ref sig .tc := ⟨.hbm, 51, rfl⟩
abbrev main_call3_v0 : Ref sig .tc := ⟨.hbm, 52, rfl⟩
abbrev main_v29 : Ref sig .tc := ⟨.hbm, 53, rfl⟩
abbrev main_v30 : Ref sig .tc := ⟨.hbm, 54, rfl⟩
abbrev main_cst : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call4_cst : Ref sig .tc := ⟨.hbm, 63, rfl⟩
abbrev main_call4_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call5_cst : Ref sig .tc := ⟨.hbm, 71, rfl⟩
abbrev main_call5_v0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call6_cst : Ref sig .tc := ⟨.hbm, 79, rfl⟩
abbrev main_call6_v0 : Ref sig .tc := ⟨.hbm, 80, rfl⟩
abbrev main_call6_cst_0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_cst_1 : Ref sig .tc := ⟨.hbm, 88, rfl⟩
abbrev main_call6_v7 : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_v50 : Ref sig .tc := ⟨.hbm, 93, rfl⟩

abbrev nD : Nat := 1
abbrev τ : Topo := Topo.v7x

variable {F : FTy → Type} [FloatOps F]

class Facts₀ : Prop where
  bcast_S32x64x26_S32x1x64x26_0_2_3 : S32x64x26.BroadcastsInDim S32x1x64x26 (![0, 2, 3] : Fin 3 → Fin S32x1x64x26.rank)
  bcast_S32x1x64x26_S32x64x64x26_0_1_2_3 : S32x1x64x26.BroadcastsInDim S32x64x64x26 (![0, 1, 2, 3] : Fin 4 → Fin S32x64x64x26.rank)
  bcast_S32x64x26_S32x64x1x26_0_1_3 : S32x64x26.BroadcastsInDim S32x64x1x26 (![0, 1, 3] : Fin 3 → Fin S32x64x1x26.rank)
  bcast_S32x64x1x26_S32x64x64x26_0_1_2_3 : S32x64x1x26.BroadcastsInDim S32x64x64x26 (![0, 1, 2, 3] : Fin 4 → Fin S32x64x64x26.rank)
  concatenates_S32x64x64x26_S32x64x64x26_S32x64x64x52_d3 : Shape.Concatenates [S32x64x64x26, S32x64x64x26] S32x64x64x52 3
  shapeCasts_S32x64x64x52_S131072x52 : S32x64x64x52.ShapeCasts S131072x52
  transposes_S512x52_S52x512_1_0 : S512x52.Transposes [1, 0] S52x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  transposes_S512x512_S512x512_1_0 : S512x512.Transposes [1, 0] S512x512
  shapeCasts_S131072x512_S32x4096x512 : S131072x512.ShapeCasts S32x4096x512
  reducesTo_S32x4096x512_S32x512_d1 : S32x4096x512.ReducesTo [1] S32x512
  h_S_ : 0 < S_.numel
  concatenates_S32x512_S32x256_S32x768_d1 : Shape.Concatenates [S32x512, S32x256] S32x768 1
  transposes_S512x768_S768x512_1_0 : S512x768.Transposes [1, 0] S768x512
  bcast_S1x512_S32x512_0_1 : S1x512.BroadcastsInDim S32x512 (![0, 1] : Fin 2 → Fin S32x512.rank)
  bcast_S_S32x512 : S_.BroadcastsInDim S32x512 (![] : Fin 0 → Fin S32x512.rank)
  transposes_S28x512_S512x28_1_0 : S28x512.Transposes [1, 0] S512x28
  bcast_S28_S1x28_1 : S28.BroadcastsInDim S1x28 (![1] : Fin 1 → Fin S1x28.rank)
  bcast_S1x28_S32x28_0_1 : S1x28.BroadcastsInDim S32x28 (![0, 1] : Fin 2 → Fin S32x28.rank)
  reducesTo_S32x28_S32_d1 : S32x28.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x28_0_1 : S32x1.BroadcastsInDim S32x28 (![0, 1] : Fin 2 → Fin S32x28.rank)
  dot_S131072x52_S52x512_S131072x512_1_0_0_1_n_n_wf : DotDims.WF S131072x52 S52x512 S131072x512 [1] [0] [0] [1] [] []
  dot_S131072x512_S512x512_S131072x512_1_0_0_1_n_n_wf : DotDims.WF S131072x512 S512x512 S131072x512 [1] [0] [0] [1] [] []
  dot_S32x768_S768x512_S32x512_1_0_0_1_n_n_wf : DotDims.WF S32x768 S768x512 S32x512 [1] [0] [0] [1] [] []
  dot_S32x512_S512x512_S32x512_1_0_0_1_n_n_wf : DotDims.WF S32x512 S512x512 S32x512 [1] [0] [0] [1] [] []
  dot_S32x512_S512x28_S32x28_1_0_0_1_n_n_wf : DotDims.WF S32x512 S512x28 S32x28 [1] [0] [0] [1] [] []

variable [Facts₀]

def dot_S131072x52_S52x512_S131072x512_1_0_0_1_n_n : DotDims S131072x52 S52x512 S131072x512 where
  lhsContracting := [1]
  rhsContracting := [0]
  lhsNonContracting := [0]
  rhsNonContracting := [1]
  lhsBatch := []
  rhsBatch := []
  wf := dot_S131072x52_S52x512_S131072x512_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S32x768_S768x512_S32x512_1_0_0_1_n_n : DotDims S32x768 S768x512 S32x512 where
  lhsContracting := [1]
  rhsContracting := [0]
  lhsNonContracting := [0]
  rhsNonContracting := [1]
  lhsBatch := []
  rhsBatch := []
  wf := dot_S32x768_S768x512_S32x512_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x512_S512x28_S32x28_1_0_0_1_n_n : DotDims S32x512 S512x28 S32x28 where
  lhsContracting := [1]
  rhsContracting := [0]
  lhsNonContracting := [0]
  rhsNonContracting := [1]
  lhsBatch := []
  rhsBatch := []
  wf := dot_S32x512_S512x28_S32x28_1_0_0_1_n_n_wf

class Facts : Prop extends Facts₀ where

variable [Facts]
-- ==== Proof.RelNet.lean ====
/-
  The relational network both programs compute, as ONE function of its sixteen arrays over the extended reals.

  For a batch element `b` and an ordered pair of objects `(p, q)`, numbered `r = 64 p + q`, the pair's 52 features are
  object `q`'s 26 followed by object `p`'s 26.  Four affine layers, each followed by the positive part, act on every
  pair; the results are summed over the 4096 pairs; the 512 sums are joined with the 256 question features; two more
  affine layers with the positive part and a last affine layer give 28 scores, and the result is their log-softmax:
  each score less the row's maximum, less the logarithm of the sum of the exponentials of those differences.

  Every sum is a finite sum of extended reals, so its order and grouping do not matter; no other law of arithmetic is
  used to compare the two programs, and in particular no finiteness of the inputs.
-/
import Idealize.ShloMosaic.Lib.ValueIdx
import Idealize.ShloMosaic.PureOps.Ideal.Laws

noncomputable section

namespace Cert.RelNet

open Idealize.ShloMosaic Idealize.ShloMosaic.ValueIdx

/-- Arrays of extended reals of rank one, two and three, indexed as the programs index theirs. -/
abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal

/-- The network's inputs: the objects `x`, the questions `q`, and seven layers' weights and biases. -/
structure Args where
  x : Arr3 32 64 26
  q : Arr2 32 256
  W0 : Arr2 512 52
  b0 : Arr1 512
  W1 : Arr2 512 512
  b1 : Arr1 512
  W2 : Arr2 512 512
  b2 : Arr1 512
  W3 : Arr2 512 512
  b3 : Arr1 512
  W4 : Arr2 512 768
  b4 : Arr1 512
  W5 : Arr2 512 512
  b5 : Arr1 512
  W6 : Arr2 28 512
  b6 : Arr1 28

/-- One output of an affine layer: the row `h` against row `o` of the weights, plus the bias. -/
def affine {K O : Nat} (h : Fin K → EReal) (W : Arr2 O K) (c : Arr1 O) (o : Fin O) : EReal :=
  (∑ k : Fin K, h k * W (ix2 o k)) + c (ix1 o)

/-- The positive part. -/
def pos (v : EReal) : EReal := max v 0

/-- The bottom element as the programs spell it: the word of −∞. -/
abbrev negInf : EReal := Ideal.ofBits .f32 0xFF800000#32

variable (A : Args)

/-- Feature `k` of pair `r = 64 p + q` of batch element `b`: object `q`'s feature `k` for `k < 26`, object `p`'s feature
    `k - 26` otherwise. -/
def pair (b : Fin 32) (r : Fin 4096) (k : Fin 52) : EReal :=
  if h : k.val < 26 then A.x (ix3 b ⟨r.val % 64, Nat.mod_lt _ (by decide)⟩ ⟨k.val, h⟩)
  else A.x (ix3 b ⟨r.val / 64, by have := r.isLt; omega⟩ ⟨k.val - 26, by have := k.isLt; omega⟩)

/-- The four layers applied to every pair. -/
def g0 (b : Fin 32) (r : Fin 4096) (o : Fin 512) : EReal := pos (affine (pair A b r) A.W0 A.b0 o)
def g1 (b : Fin 32) (r : Fin 4096) (o : Fin 512) : EReal := pos (affine (g0 A b r) A.W1 A.b1 o)
def g2 (b : Fin 32) (r : Fin 4096) (o : Fin 512) : EReal := pos (affine (g1 A b r) A.W2 A.b2 o)
def g3 (b : Fin 32) (r : Fin 4096) (o : Fin 512) : EReal := pos (affine (g2 A b r) A.W3 A.b3 o)

/-- The sum over the pairs. -/
def agg (b : Fin 32) (o : Fin 512) : EReal := ∑ r : Fin 4096, g3 A b r o

/-- The sums joined with the question's features. -/
def joined (b : Fin 32) (k : Fin 768) : EReal :=
  if h : k.val < 512 then agg A b ⟨k.val, h⟩ else A.q (ix2 b ⟨k.val - 512, by have := k.isLt; omega⟩)

/-- The three layers after the sum. -/
def f0 (b : Fin 32) (o : Fin 512) : EReal := pos (affine (joined A b) A.W4 A.b4 o)
def f1 (b : Fin 32) (o : Fin 512) : EReal := pos (affine (f0 A b) A.W5 A.b5 o)
def score (b : Fin 32) (j : Fin 28) : EReal := affine (f1 A b) A.W6 A.b6 j

/-- A row's maximum, taken from −∞ (and once more against −∞, as both programs do). -/
def top (b : Fin 32) : EReal := max negInf ((Finset.univ : Finset (Fin 28)).fold max negInf (score A b))

/-- A score less the row's maximum. -/
def shifted (b : Fin 32) (j : Fin 28) : EReal := score A b j - top A b

/-- The log-softmax of the scores. -/
def out (b : Fin 32) (j : Fin 28) : EReal := shifted A b j - Ideal.log (∑ k : Fin 28, Ideal.exp (shifted A b k))

/-- The network's result as an array. -/
def result : Arr2 32 28 := fun i => out A (i 0) (i 1)

end Cert.RelNet

end
-- ==== Proof.KernelPairs.lean ====
/-
  The kernel's array of pair features, read at an entry.  From the batch element's [1, 64, 26] block of objects the
  kernel broadcasts the objects along a new leading axis (entry (p, q, k) is object q's feature k) and along a new
  middle axis (entry (p, q, k) is object p's feature k), joins the two along the feature axis, and flattens (p, q) to
  the row r = 64 p + q.  So row r's feature k is object (r mod 64)'s feature k for k < 26 and object (r div 64)'s
  feature k - 26 otherwise.
-/
import proofs.«155540_j6966436954182_1_alg».proof.Proof.Gen.KernelIdeal.Skeleton
import proofs.«155540_j6966436954182_1_alg».proof.Proof.RelNet
import Idealize.ShloMosaic.Lib.ValueIdx
import Idealize.ShloMosaic.Lib.ValueLayout
import Idealize.ShloMosaic.Lib.Pipeline.Value
import Idealize.ShloMosaic.PureOps.Ideal.Laws

noncomputable section

namespace Cert.RelNet.Ker

open Cert.KernelIdeal Cert.KernelIdeal.Gen Idealize.ShloMosaic Idealize.ShloMosaic.ValueIdx Cert.RelNet

/-- Objects broadcast along a new leading axis: entry (p, q, k) is the block's (0, q, k). -/
theorem bcast_lead_apply (v : FVec Ideal S1x64x26 .bf16) (p q : Fin 64) (k : Fin 26) :
    broadcastTo S64x64x26 v broadcasts_S1x64x26_S64x64x26 (ix3 p q k) = v (ix3 (0 : Fin 1) q k) := by
  refine broadcastTo_apply v broadcasts_S1x64x26_S64x64x26 (ix3 p q k) (ix3 (0 : Fin 1) q k) fun a => ?_
  match a with
  | ⟨0, _⟩ => rfl
  | ⟨1, _⟩ => show q.val = if (64 : Nat) = 1 then 0 else q.val; rw [if_neg (by decide)]
  | ⟨2, _⟩ => show k.val = if (26 : Nat) = 1 then 0 else k.val; rw [if_neg (by decide)]

/-- Objects broadcast along a new middle axis: entry (p, q, k) is the operand's (p, 0, k). -/
theorem bcast_mid_apply (v : FVec Ideal S64x1x26 .bf16) (p q : Fin 64) (k : Fin 26) :
    broadcastTo S64x64x26 v broadcasts_S64x1x26_S64x64x26 (ix3 p q k) = v (ix3 p (0 : Fin 1) k) := by
  refine broadcastTo_apply v broadcasts_S64x1x26_S64x64x26 (ix3 p q k) (ix3 p (0 : Fin 1) k) fun a => ?_
  match a with
  | ⟨0, _⟩ => show p.val = if (64 : Nat) = 1 then 0 else p.val; rw [if_neg (by decide)]
  | ⟨1, _⟩ => rfl
  | ⟨2, _⟩ => show k.val = if (26 : Nat) = 1 then 0 else k.val; rw [if_neg (by decide)]

/-- A [64, 26] array given a unit middle axis: entry (p, 0, k) is the operand's (p, k). -/
theorem cast_mid_apply (v : FVec Ideal S64x26 .bf16) (p : Fin 64) (u : Fin 1) (k : Fin 26) :
    shapeCast S64x1x26 v shapeCasts_S64x26_S64x1x26 (ix3 p u k) = v (ix2 p k) :=
  shapeCast_apply v shapeCasts_S64x26_S64x1x26 _ _ (by
    have hu : u.val = 0 := by omega
    rw [Shape.rowMajor_val_three, Shape.rowMajor_val_two]
    show p.val * 26 + k.val = (p.val * 1 + u.val) * 26 + k.val
    rw [hu]; omega)

/-- The two object axes flattened: row r of the [4096, 52] array is entry (r div 64, r mod 64) of the [64, 64, 52] one. -/
theorem flatten_apply (v : FVec Ideal S64x64x52 .bf16) (r : Fin 4096) (k : Fin 52) :
    shapeCast S4096x52 v shapeCasts_S64x64x52_S4096x52 (ix2 r k)
      = v (ix3 (⟨r.val / 64, by have := r.isLt; omega⟩ : Fin 64) (⟨r.val % 64, Nat.mod_lt _ (by decide)⟩ : Fin 64) k) :=
  shapeCast_apply v shapeCasts_S64x64x52_S4096x52 _ _ (by
    rw [Shape.rowMajor_val_three, Shape.rowMajor_val_two]
    show (r.val / 64 * 64 + r.val % 64) * 52 + k.val = r.val * 52 + k.val
    have := r.isLt; omega)

/-- The join along the feature axis, below 26: the first piece. -/
theorem join_left_apply (a b : FVec Ideal S64x64x26 .bf16) (p q : Fin 64) (k : Fin 52) (h : k.val < 26) :
    concatenate S64x64x52 2 [⟨S64x64x26, a⟩, ⟨S64x64x26, b⟩] concatenates_S64x64x26_S64x64x26_S64x64x52_d2 (ix3 p q k)
      = a (ix3 p q (⟨k.val, h⟩ : Fin 26)) :=
  concatenate_pair_apply_left (2 : Fin 3) a b concatenates_S64x64x26_S64x64x26_S64x64x52_d2 (ix3 p q k) rfl
    (ix3 p q (⟨k.val, h⟩ : Fin 26)) (fun c => by
      match c with
      | ⟨0, _⟩ => rfl
      | ⟨1, _⟩ => rfl
      | ⟨2, _⟩ => rfl)

/-- The join along the feature axis, from 26 on: the second piece, 26 less. -/
theorem join_right_apply (a b : FVec Ideal S64x64x26 .bf16) (p q : Fin 64) (k : Fin 52) (h : ¬ k.val < 26) :
    concatenate S64x64x52 2 [⟨S64x64x26, a⟩, ⟨S64x64x26, b⟩] concatenates_S64x64x26_S64x64x26_S64x64x52_d2 (ix3 p q k)
      = b (ix3 p q (⟨k.val - 26, by have := k.isLt; omega⟩ : Fin 26)) :=
  concatenate_pair_apply_right (2 : Fin 3) a b concatenates_S64x64x26_S64x64x26_S64x64x52_d2 (ix3 p q k) rfl rfl
    (ix3 p q (⟨k.val - 26, by have := k.isLt; omega⟩ : Fin 26)) (fun c hc => by
      match c with
      | ⟨0, _⟩ => rfl
      | ⟨1, _⟩ => rfl
      | ⟨2, _⟩ => exact absurd rfl hc)
    (by show k.val - 26 + 26 = k.val; omega)

/-- The kernel's array of pair features, from the batch element's block of objects. -/
def pairsK (x0 : Vec Ideal S1x64x26 .bf16) : FVec Ideal S4096x52 .bf16 :=
  shapeCast S4096x52
    (concatenate S64x64x52 2
      [⟨S64x64x26, broadcastTo S64x64x26 (shapeCast S1x64x26 (shapeCast S1x64x26 (shapeCast S64x26 x0 shapeCasts_S1x64x26_S64x26) shapeCasts_S64x26_S1x64x26) shapeCasts_S1x64x26_S1x64x26) broadcasts_S1x64x26_S64x64x26⟩,
       ⟨S64x64x26, broadcastTo S64x64x26 (shapeCast S64x1x26 (shapeCast S64x1x26 (shapeCast S64x26 x0 shapeCasts_S1x64x26_S64x26) shapeCasts_S64x26_S64x1x26) shapeCasts_S64x1x26_S64x1x26) broadcasts_S64x1x26_S64x64x26⟩]
      concatenates_S64x64x26_S64x64x26_S64x64x52_d2)
    shapeCasts_S64x64x52_S4096x52

/-- Row r's feature k: object (r mod 64)'s feature k below 26, object (r div 64)'s feature k - 26 from 26 on. -/
theorem pairsK_apply (x0 : Vec Ideal S1x64x26 .bf16) (r : Fin 4096) (k : Fin 52) :
    pairsK x0 (ix2 r k)
      = if h : k.val < 26 then x0 (ix3 (0 : Fin 1) (⟨r.val % 64, Nat.mod_lt _ (by decide)⟩ : Fin 64) (⟨k.val, h⟩ : Fin 26))
        else x0 (ix3 (0 : Fin 1) (⟨r.val / 64, by have := r.isLt; omega⟩ : Fin 64) (⟨k.val - 26, by have := k.isLt; omega⟩ : Fin 26)) := by
  unfold pairsK
  refine (flatten_apply _ r k).trans ?_
  by_cases h : k.val < 26
  · rw [dif_pos h]
    refine (join_left_apply _ _ _ _ k h).trans ?_
    refine (bcast_lead_apply _ _ _ _).trans ?_
    rw [shapeCast_self, shapeCast_shapeCast]
  · rw [dif_neg h]
    refine (join_right_apply _ _ _ _ k h).trans ?_
    refine (bcast_mid_apply _ _ _ _).trans ?_
    rw [shapeCast_self]
    refine (cast_mid_apply _ _ _ _).trans ?_
    exact shapeCast_1ab_ab_apply x0 shapeCasts_S1x64x26_S64x26 _ _

end Cert.RelNet.Ker

end
-- ==== Proof.KernelProducts.lean ====
/-
  The kernel's five matrix products read at an entry.  Each contracts the second axis of both operands, so at the
  exact values entry (a, o) of the product into a zero accumulator is the plain sum over `k` of left (a, k) times
  right (o, k): no rounding and no order of accumulation is left in it.
-/
import proofs.«155540_j6966436954182_1_alg».proof.Proof.Gen.KernelIdeal
import Idealize.ShloMosaic.Lib.ValueIdx
import Idealize.ShloMosaic.PureOps.Ideal.Laws

noncomputable section

namespace Cert.RelNet.Ker

open Cert.KernelIdeal Cert.KernelIdeal.Gen Idealize.ShloMosaic Idealize.ShloMosaic.ValueIdx

/-! ### The product of a [4096, 52] array with the transpose of a [512, 52] array -/

theorem lhs_dot_S4096x52_S512x52_S4096x512_1_1_0_0_n_n_0 (i : S4096x512.Idx) (q : dot_S4096x52_S512x52_S4096x512_1_1_0_0_n_n.contr.Idx) :
    (dot_S4096x52_S512x52_S4096x512_1_1_0_0_n_n.lhsIdx i q 0).val = (i 0).val := by
  unfold DotDims.lhsIdx
  rw [dif_neg (show ¬(0 : Fin S4096x52.rank) ∈ dot_S4096x52_S512x52_S4096x512_1_1_0_0_n_n.lhsBatch by decide), dif_pos (show (0 : Fin S4096x52.rank) ∈ dot_S4096x52_S512x52_S4096x512_1_1_0_0_n_n.lhsNonContracting by decide)]
  rfl
theorem lhs_dot_S4096x52_S512x52_S4096x512_1_1_0_0_n_n_1 (i : S4096x512.Idx) (q : dot_S4096x52_S512x52_S4096x512_1_1_0_0_n_n.contr.Idx) :
    (dot_S4096x52_S512x52_S4096x512_1_1_0_0_n_n.lhsIdx i q 1).val = (q ⟨0, by decide⟩).val :=
  dot_S4096x52_S512x52_S4096x512_1_1_0_0_n_n.lhsIdx_val_of_single rfl i q
theorem rhs_dot_S4096x52_S512x52_S4096x512_1_1_0_0_n_n_0 (i : S4096x512.Idx) (q : dot_S4096x52_S512x52_S4096x512_1_1_0_0_n_n.contr.Idx) :
    (dot_S4096x52_S512x52_S4096x512_1_1_0_0_n_n.rhsIdx i q 0).val = (i 1).val := by
  unfold DotDims.rhsIdx
  rw [dif_neg (show ¬(0 : Fin S512x52.rank) ∈ dot_S4096x52_S512x52_S4096x512_1_1_0_0_n_n.rhsBatch by decide), dif_pos (show (0 : Fin S512x52.rank) ∈ dot_S4096x52_S512x52_S4096x512_1_1_0_0_n_n.rhsNonContracting by decide)]
  rfl
theorem rhs_dot_S4096x52_S512x52_S4096x512_1_1_0_0_n_n_1 (i : S4096x512.Idx) (q : dot_S4096x52_S512x52_S4096x512_1_1_0_0_n_n.contr.Idx) :
    (dot_S4096x52_S512x52_S4096x512_1_1_0_0_n_n.rhsIdx i q 1).val = (q ⟨0, by decide⟩).val :=
  dot_S4096x52_S512x52_S4096x512_1_1_0_0_n_n.rhsIdx_val_of_single rfl i q

/-- Into the zero accumulator, entry (a, o) of the product is the sum over `k` of the left array's (a, k) times the right array's (o, k). -/
theorem matmul_S4096x52_S512x52_apply (l : FVec Ideal S4096x52 .bf16) (r : FVec Ideal S512x52 .bf16) (a : Fin 4096) (o : Fin 512) :
    matmul dot_S4096x52_S512x52_S4096x512_1_1_0_0_n_n none l r (constant S4096x512 .f32 0x00000000#32) (ix2 a o)
      = ∑ k : Fin 52, l (ix2 a k) * r (ix2 o k) := by
  simp only [matmul]
  rw [Ideal.matmul_constant_zero_apply, ← Equiv.sum_comp (ValueIdx.contrEquiv1 dot_S4096x52_S512x52_S4096x512_1_1_0_0_n_n 52 rfl rfl).symm]
  refine Finset.sum_congr rfl fun k _ => ?_
  have hk := ValueIdx.contrEquiv1_symm_val dot_S4096x52_S512x52_S4096x512_1_1_0_0_n_n 52 rfl rfl k
  have el : dot_S4096x52_S512x52_S4096x512_1_1_0_0_n_n.lhsIdx (ix2 a o) ((ValueIdx.contrEquiv1 dot_S4096x52_S512x52_S4096x512_1_1_0_0_n_n 52 rfl rfl).symm k) = ix2 a k := funext fun x => Fin.ext (by
    match x with
    | ⟨0, _⟩ => exact lhs_dot_S4096x52_S512x52_S4096x512_1_1_0_0_n_n_0 _ _
    | ⟨1, _⟩ => exact (lhs_dot_S4096x52_S512x52_S4096x512_1_1_0_0_n_n_1 _ _).trans hk)
  have er : dot_S4096x52_S512x52_S4096x512_1_1_0_0_n_n.rhsIdx (ix2 a o) ((ValueIdx.contrEquiv1 dot_S4096x52_S512x52_S4096x512_1_1_0_0_n_n 52 rfl rfl).symm k) = ix2 o k := funext fun x => Fin.ext (by
    match x with
    | ⟨0, _⟩ => exact rhs_dot_S4096x52_S512x52_S4096x512_1_1_0_0_n_n_0 _ _
    | ⟨1, _⟩ => exact (rhs_dot_S4096x52_S512x52_S4096x512_1_1_0_0_n_n_1 _ _).trans hk)
  rw [el, er]

/-! ### The product of a [4096, 512] array with the transpose of a [512, 512] array -/

theorem lhs_dot_S4096x512_S512x512_S4096x512_1_1_0_0_n_n_0 (i : S4096x512.Idx) (q : dot_S4096x512_S512x512_S4096x512_1_1_0_0_n_n.contr.Idx) :
    (dot_S4096x512_S512x512_S4096x512_1_1_0_0_n_n.lhsIdx i q 0).val = (i 0).val := by
  unfold DotDims.lhsIdx
  rw [dif_neg (show ¬(0 : Fin S4096x512.rank) ∈ dot_S4096x512_S512x512_S4096x512_1_1_0_0_n_n.lhsBatch by decide), dif_pos (show (0 : Fin S4096x512.rank) ∈ dot_S4096x512_S512x512_S4096x512_1_1_0_0_n_n.lhsNonContracting by decide)]
  rfl
theorem lhs_dot_S4096x512_S512x512_S4096x512_1_1_0_0_n_n_1 (i : S4096x512.Idx) (q : dot_S4096x512_S512x512_S4096x512_1_1_0_0_n_n.contr.Idx) :
    (dot_S4096x512_S512x512_S4096x512_1_1_0_0_n_n.lhsIdx i q 1).val = (q ⟨0, by decide⟩).val :=
  dot_S4096x512_S512x512_S4096x512_1_1_0_0_n_n.lhsIdx_val_of_single rfl i q
theorem rhs_dot_S4096x512_S512x512_S4096x512_1_1_0_0_n_n_0 (i : S4096x512.Idx) (q : dot_S4096x512_S512x512_S4096x512_1_1_0_0_n_n.contr.Idx) :
    (dot_S4096x512_S512x512_S4096x512_1_1_0_0_n_n.rhsIdx i q 0).val = (i 1).val := by
  unfold DotDims.rhsIdx
  rw [dif_neg (show ¬(0 : Fin S512x512.rank) ∈ dot_S4096x512_S512x512_S4096x512_1_1_0_0_n_n.rhsBatch by decide), dif_pos (show (0 : Fin S512x512.rank) ∈ dot_S4096x512_S512x512_S4096x512_1_1_0_0_n_n.rhsNonContracting by decide)]
  rfl
theorem rhs_dot_S4096x512_S512x512_S4096x512_1_1_0_0_n_n_1 (i : S4096x512.Idx) (q : dot_S4096x512_S512x512_S4096x512_1_1_0_0_n_n.contr.Idx) :
    (dot_S4096x512_S512x512_S4096x512_1_1_0_0_n_n.rhsIdx i q 1).val = (q ⟨0, by decide⟩).val :=
  dot_S4096x512_S512x512_S4096x512_1_1_0_0_n_n.rhsIdx_val_of_single rfl i q

/-- Into the zero accumulator, entry (a, o) of the product is the sum over `k` of the left array's (a, k) times the right array's (o, k). -/
theorem matmul_S4096x512_S512x512_apply (l : FVec Ideal S4096x512 .bf16) (r : FVec Ideal S512x512 .bf16) (a : Fin 4096) (o : Fin 512) :
    matmul dot_S4096x512_S512x512_S4096x512_1_1_0_0_n_n none l r (constant S4096x512 .f32 0x00000000#32) (ix2 a o)
      = ∑ k : Fin 512, l (ix2 a k) * r (ix2 o k) := by
  simp only [matmul]
  rw [Ideal.matmul_constant_zero_apply, ← Equiv.sum_comp (ValueIdx.contrEquiv1 dot_S4096x512_S512x512_S4096x512_1_1_0_0_n_n 512 rfl rfl).symm]
  refine Finset.sum_congr rfl fun k _ => ?_
  have hk := ValueIdx.contrEquiv1_symm_val dot_S4096x512_S512x512_S4096x512_1_1_0_0_n_n 512 rfl rfl k
  have el : dot_S4096x512_S512x512_S4096x512_1_1_0_0_n_n.lhsIdx (ix2 a o) ((ValueIdx.contrEquiv1 dot_S4096x512_S512x512_S4096x512_1_1_0_0_n_n 512 rfl rfl).symm k) = ix2 a k := funext fun x => Fin.ext (by
    match x with
    | ⟨0, _⟩ => exact lhs_dot_S4096x512_S512x512_S4096x512_1_1_0_0_n_n_0 _ _
    | ⟨1, _⟩ => exact (lhs_dot_S4096x512_S512x512_S4096x512_1_1_0_0_n_n_1 _ _).trans hk)
  have er : dot_S4096x512_S512x512_S4096x512_1_1_0_0_n_n.rhsIdx (ix2 a o) ((ValueIdx.contrEquiv1 dot_S4096x512_S512x512_S4096x512_1_1_0_0_n_n 512 rfl rfl).symm k) = ix2 o k := funext fun x => Fin.ext (by
    match x with
    | ⟨0, _⟩ => exact rhs_dot_S4096x512_S512x512_S4096x512_1_1_0_0_n_n_0 _ _
    | ⟨1, _⟩ => exact (rhs_dot_S4096x512_S512x512_S4096x512_1_1_0_0_n_n_1 _ _).trans hk)
  rw [el, er]

/-! ### The product of a [1, 768] array with the transpose of a [512, 768] array -/

theorem lhs_dot_S1x768_S512x768_S1x512_1_1_0_0_n_n_0 (i : S1x512.Idx) (q : dot_S1x768_S512x768_S1x512_1_1_0_0_n_n.contr.Idx) :
    (dot_S1x768_S512x768_S1x512_1_1_0_0_n_n.lhsIdx i q 0).val = (i 0).val := by
  unfold DotDims.lhsIdx
  rw [dif_neg (show ¬(0 : Fin S1x768.rank) ∈ dot_S1x768_S512x768_S1x512_1_1_0_0_n_n.lhsBatch by decide), dif_pos (show (0 : Fin S1x768.rank) ∈ dot_S1x768_S512x768_S1x512_1_1_0_0_n_n.lhsNonContracting by decide)]
  rfl
theorem lhs_dot_S1x768_S512x768_S1x512_1_1_0_0_n_n_1 (i : S1x512.Idx) (q : dot_S1x768_S512x768_S1x512_1_1_0_0_n_n.contr.Idx) :
    (dot_S1x768_S512x768_S1x512_1_1_0_0_n_n.lhsIdx i q 1).val = (q ⟨0, by decide⟩).val :=
  dot_S1x768_S512x768_S1x512_1_1_0_0_n_n.lhsIdx_val_of_single rfl i q
theorem rhs_dot_S1x768_S512x768_S1x512_1_1_0_0_n_n_0 (i : S1x512.Idx) (q : dot_S1x768_S512x768_S1x512_1_1_0_0_n_n.contr.Idx) :
    (dot_S1x768_S512x768_S1x512_1_1_0_0_n_n.rhsIdx i q 0).val = (i 1).val := by
  unfold DotDims.rhsIdx
  rw [dif_neg (show ¬(0 : Fin S512x768.rank) ∈ dot_S1x768_S512x768_S1x512_1_1_0_0_n_n.rhsBatch by decide), dif_pos (show (0 : Fin S512x768.rank) ∈ dot_S1x768_S512x768_S1x512_1_1_0_0_n_n.rhsNonContracting by decide)]
  rfl
theorem rhs_dot_S1x768_S512x768_S1x512_1_1_0_0_n_n_1 (i : S1x512.Idx) (q : dot_S1x768_S512x768_S1x512_1_1_0_0_n_n.contr.Idx) :
    (dot_S1x768_S512x768_S1x512_1_1_0_0_n_n.rhsIdx i q 1).val = (q ⟨0, by decide⟩).val :=
  dot_S1x768_S512x768_S1x512_1_1_0_0_n_n.rhsIdx_val_of_single rfl i q

/-- Into the zero accumulator, entry (a, o) of the product is the sum over `k` of the left array's (a, k) times the right array's (o, k). -/
theorem matmul_S1x768_S512x768_apply (l : FVec Ideal S1x768 .bf16) (r : FVec Ideal S512x768 .bf16) (a : Fin 1) (o : Fin 512) :
    matmul dot_S1x768_S512x768_S1x512_1_1_0_0_n_n none l r (constant S1x512 .f32 0x00000000#32) (ix2 a o)
      = ∑ k : Fin 768, l (ix2 a k) * r (ix2 o k) := by
  simp only [matmul]
  rw [Ideal.matmul_constant_zero_apply, ← Equiv.sum_comp (ValueIdx.contrEquiv1 dot_S1x768_S512x768_S1x512_1_1_0_0_n_n 768 rfl rfl).symm]
  refine Finset.sum_congr rfl fun k _ => ?_
  have hk := ValueIdx.contrEquiv1_symm_val dot_S1x768_S512x768_S1x512_1_1_0_0_n_n 768 rfl rfl k
  have el : dot_S1x768_S512x768_S1x512_1_1_0_0_n_n.lhsIdx (ix2 a o) ((ValueIdx.contrEquiv1 dot_S1x768_S512x768_S1x512_1_1_0_0_n_n 768 rfl rfl).symm k) = ix2 a k := funext fun x => Fin.ext (by
    match x with
    | ⟨0, _⟩ => exact lhs_dot_S1x768_S512x768_S1x512_1_1_0_0_n_n_0 _ _
    | ⟨1, _⟩ => exact (lhs_dot_S1x768_S512x768_S1x512_1_1_0_0_n_n_1 _ _).trans hk)
  have er : dot_S1x768_S512x768_S1x512_1_1_0_0_n_n.rhsIdx (ix2 a o) ((ValueIdx.contrEquiv1 dot_S1x768_S512x768_S1x512_1_1_0_0_n_n 768 rfl rfl).symm k) = ix2 o k := funext fun x => Fin.ext (by
    match x with
    | ⟨0, _⟩ => exact rhs_dot_S1x768_S512x768_S1x512_1_1_0_0_n_n_0 _ _
    | ⟨1, _⟩ => exact (rhs_dot_S1x768_S512x768_S1x512_1_1_0_0_n_n_1 _ _).trans hk)
  rw [el, er]

/-! ### The product of a [1, 512] array with the transpose of a [512, 512] array -/

theorem lhs_dot_S1x512_S512x512_S1x512_1_1_0_0_n_n_0 (i : S1x512.Idx) (q : dot_S1x512_S512x512_S1x512_1_1_0_0_n_n.contr.Idx) :
    (dot_S1x512_S512x512_S1x512_1_1_0_0_n_n.lhsIdx i q 0).val = (i 0).val := by
  unfold DotDims.lhsIdx
  rw [dif_neg (show ¬(0 : Fin S1x512.rank) ∈ dot_S1x512_S512x512_S1x512_1_1_0_0_n_n.lhsBatch by decide), dif_pos (show (0 : Fin S1x512.rank) ∈ dot_S1x512_S512x512_S1x512_1_1_0_0_n_n.lhsNonContracting by decide)]
  rfl
theorem lhs_dot_S1x512_S512x512_S1x512_1_1_0_0_n_n_1 (i : S1x512.Idx) (q : dot_S1x512_S512x512_S1x512_1_1_0_0_n_n.contr.Idx) :
    (dot_S1x512_S512x512_S1x512_1_1_0_0_n_n.lhsIdx i q 1).val = (q ⟨0, by decide⟩).val :=
  dot_S1x512_S512x512_S1x512_1_1_0_0_n_n.lhsIdx_val_of_single rfl i q
theorem rhs_dot_S1x512_S512x512_S1x512_1_1_0_0_n_n_0 (i : S1x512.Idx) (q : dot_S1x512_S512x512_S1x512_1_1_0_0_n_n.contr.Idx) :
    (dot_S1x512_S512x512_S1x512_1_1_0_0_n_n.rhsIdx i q 0).val = (i 1).val := by
  unfold DotDims.rhsIdx
  rw [dif_neg (show ¬(0 : Fin S512x512.rank) ∈ dot_S1x512_S512x512_S1x512_1_1_0_0_n_n.rhsBatch by decide), dif_pos (show (0 : Fin S512x512.rank) ∈ dot_S1x512_S512x512_S1x512_1_1_0_0_n_n.rhsNonContracting by decide)]
  rfl
theorem rhs_dot_S1x512_S512x512_S1x512_1_1_0_0_n_n_1 (i : S1x512.Idx) (q : dot_S1x512_S512x512_S1x512_1_1_0_0_n_n.contr.Idx) :
    (dot_S1x512_S512x512_S1x512_1_1_0_0_n_n.rhsIdx i q 1).val = (q ⟨0, by decide⟩).val :=
  dot_S1x512_S512x512_S1x512_1_1_0_0_n_n.rhsIdx_val_of_single rfl i q

/-- Into the zero accumulator, entry (a, o) of the product is the sum over `k` of the left array's (a, k) times the right array's (o, k). -/
theorem matmul_S1x512_S512x512_apply (l : FVec Ideal S1x512 .bf16) (r : FVec Ideal S512x512 .bf16) (a : Fin 1) (o : Fin 512) :
    matmul dot_S1x512_S512x512_S1x512_1_1_0_0_n_n none l r (constant S1x512 .f32 0x00000000#32) (ix2 a o)
      = ∑ k : Fin 512, l (ix2 a k) * r (ix2 o k) := by
  simp only [matmul]
  rw [Ideal.matmul_constant_zero_apply, ← Equiv.sum_comp (ValueIdx.contrEquiv1 dot_S1x512_S512x512_S1x512_1_1_0_0_n_n 512 rfl rfl).symm]
  refine Finset.sum_congr rfl fun k _ => ?_
  have hk := ValueIdx.contrEquiv1_symm_val dot_S1x512_S512x512_S1x512_1_1_0_0_n_n 512 rfl rfl k
  have el : dot_S1x512_S512x512_S1x512_1_1_0_0_n_n.lhsIdx (ix2 a o) ((ValueIdx.contrEquiv1 dot_S1x512_S512x512_S1x512_1_1_0_0_n_n 512 rfl rfl).symm k) = ix2 a k := funext fun x => Fin.ext (by
    match x with
    | ⟨0, _⟩ => exact lhs_dot_S1x512_S512x512_S1x512_1_1_0_0_n_n_0 _ _
    | ⟨1, _⟩ => exact (lhs_dot_S1x512_S512x512_S1x512_1_1_0_0_n_n_1 _ _).trans hk)
  have er : dot_S1x512_S512x512_S1x512_1_1_0_0_n_n.rhsIdx (ix2 a o) ((ValueIdx.contrEquiv1 dot_S1x512_S512x512_S1x512_1_1_0_0_n_n 512 rfl rfl).symm k) = ix2 o k := funext fun x => Fin.ext (by
    match x with
    | ⟨0, _⟩ => exact rhs_dot_S1x512_S512x512_S1x512_1_1_0_0_n_n_0 _ _
    | ⟨1, _⟩ => exact (rhs_dot_S1x512_S512x512_S1x512_1_1_0_0_n_n_1 _ _).trans hk)
  rw [el, er]

/-! ### The product of a [1, 512] array with the transpose of a [28, 512] array -/

theorem lhs_dot_S1x512_S28x512_S1x28_1_1_0_0_n_n_0 (i : S1x28.Idx) (q : dot_S1x512_S28x512_S1x28_1_1_0_0_n_n.contr.Idx) :
    (dot_S1x512_S28x512_S1x28_1_1_0_0_n_n.lhsIdx i q 0).val = (i 0).val := by
  unfold DotDims.lhsIdx
  rw [dif_neg (show ¬(0 : Fin S1x512.rank) ∈ dot_S1x512_S28x512_S1x28_1_1_0_0_n_n.lhsBatch by decide), dif_pos (show (0 : Fin S1x512.rank) ∈ dot_S1x512_S28x512_S1x28_1_1_0_0_n_n.lhsNonContracting by decide)]
  rfl
theorem lhs_dot_S1x512_S28x512_S1x28_1_1_0_0_n_n_1 (i : S1x28.Idx) (q : dot_S1x512_S28x512_S1x28_1_1_0_0_n_n.contr.Idx) :
    (dot_S1x512_S28x512_S1x28_1_1_0_0_n_n.lhsIdx i q 1).val = (q ⟨0, by decide⟩).val :=
  dot_S1x512_S28x512_S1x28_1_1_0_0_n_n.lhsIdx_val_of_single rfl i q
theorem rhs_dot_S1x512_S28x512_S1x28_1_1_0_0_n_n_0 (i : S1x28.Idx) (q : dot_S1x512_S28x512_S1x28_1_1_0_0_n_n.contr.Idx) :
    (dot_S1x512_S28x512_S1x28_1_1_0_0_n_n.rhsIdx i q 0).val = (i 1).val := by
  unfold DotDims.rhsIdx
  rw [dif_neg (show ¬(0 : Fin S28x512.rank) ∈ dot_S1x512_S28x512_S1x28_1_1_0_0_n_n.rhsBatch by decide), dif_pos (show (0 : Fin S28x512.rank) ∈ dot_S1x512_S28x512_S1x28_1_1_0_0_n_n.rhsNonContracting by decide)]
  rfl
theorem rhs_dot_S1x512_S28x512_S1x28_1_1_0_0_n_n_1 (i : S1x28.Idx) (q : dot_S1x512_S28x512_S1x28_1_1_0_0_n_n.contr.Idx) :
    (dot_S1x512_S28x512_S1x28_1_1_0_0_n_n.rhsIdx i q 1).val = (q ⟨0, by decide⟩).val :=
  dot_S1x512_S28x512_S1x28_1_1_0_0_n_n.rhsIdx_val_of_single rfl i q

/-- Into the zero accumulator, entry (a, o) of the product is the sum over `k` of the left array's (a, k) times the right array's (o, k). -/
theorem matmul_S1x512_S28x512_apply (l : FVec Ideal S1x512 .bf16) (r : FVec Ideal S28x512 .bf16) (a : Fin 1) (o : Fin 28) :
    matmul dot_S1x512_S28x512_S1x28_1_1_0_0_n_n none l r (constant S1x28 .f32 0x00000000#32) (ix2 a o)
      = ∑ k : Fin 512, l (ix2 a k) * r (ix2 o k) := by
  simp only [matmul]
  rw [Ideal.matmul_constant_zero_apply, ← Equiv.sum_comp (ValueIdx.contrEquiv1 dot_S1x512_S28x512_S1x28_1_1_0_0_n_n 512 rfl rfl).symm]
  refine Finset.sum_congr rfl fun k _ => ?_
  have hk := ValueIdx.contrEquiv1_symm_val dot_S1x512_S28x512_S1x28_1_1_0_0_n_n 512 rfl rfl k
  have el : dot_S1x512_S28x512_S1x28_1_1_0_0_n_n.lhsIdx (ix2 a o) ((ValueIdx.contrEquiv1 dot_S1x512_S28x512_S1x28_1_1_0_0_n_n 512 rfl rfl).symm k) = ix2 a k := funext fun x => Fin.ext (by
    match x with
    | ⟨0, _⟩ => exact lhs_dot_S1x512_S28x512_S1x28_1_1_0_0_n_n_0 _ _
    | ⟨1, _⟩ => exact (lhs_dot_S1x512_S28x512_S1x28_1_1_0_0_n_n_1 _ _).trans hk)
  have er : dot_S1x512_S28x512_S1x28_1_1_0_0_n_n.rhsIdx (ix2 a o) ((ValueIdx.contrEquiv1 dot_S1x512_S28x512_S1x28_1_1_0_0_n_n 512 rfl rfl).symm k) = ix2 o k := funext fun x => Fin.ext (by
    match x with
    | ⟨0, _⟩ => exact rhs_dot_S1x512_S28x512_S1x28_1_1_0_0_n_n_0 _ _
    | ⟨1, _⟩ => exact (rhs_dot_S1x512_S28x512_S1x28_1_1_0_0_n_n_1 _ _).trans hk)
  rw [el, er]

end Cert.RelNet.Ker

end
-- ==== Proof.KernelLayers.lean ====
/-
  The kernel's layers, read at an entry.  A layer multiplies an array of rows by the transpose of its weights
  into a zero accumulator, adds the bias to every row and takes the positive part; so entry (r, o) is the positive
  part of the sum over k of row r's entry k times the weights' (o, k), plus the bias at o.  The sum over the 4096
  pairs is a reduction along the row axis; the join with the question's features is a join along the feature axis.
-/
import proofs.«155540_j6966436954182_1_alg».proof.Proof.Gen.KernelIdeal.Skeleton
import proofs.«155540_j6966436954182_1_alg».proof.Proof.RelNet
import proofs.«155540_j6966436954182_1_alg».proof.Proof.KernelProducts
import Idealize.ShloMosaic.Lib.ValueIdx
import Idealize.ShloMosaic.Lib.ValueLayout
import Idealize.ShloMosaic.Lib.Pipeline.Value
import Idealize.ShloMosaic.PureOps.Ideal.Laws

noncomputable section

namespace Cert.RelNet.Ker

open Cert.KernelIdeal Cert.KernelIdeal.Gen Idealize.ShloMosaic Idealize.ShloMosaic.ValueIdx Cert.RelNet

/-! ## The bias of a layer on 4096 rows -/

/-- A bias made one row and broadcast over the rows: entry (r, o) is the bias at o. -/
theorem bias_rows_apply (b : FVec Ideal S512 .f32) (r : Fin 4096) (o : Fin 512) :
    broadcastTo S4096x512 (shapeCast S1x512 b shapeCasts_S512_S1x512) broadcasts_S1x512_S4096x512 (ix2 r o) = b (ix1 o) :=
  (broadcastTo_1b_ab_apply _ broadcasts_S1x512_S4096x512 r o).trans (shapeCast_a_1a_apply b shapeCasts_S512_S1x512 0 o)

/-! ## The layers on the 4096 pairs -/

/-- The first layer: the pairs' 52 features against the [512, 52] weights. -/
def layer52 (h : FVec Ideal S4096x52 .bf16) (w : FVec Ideal S512x52 .bf16) (b : FVec Ideal S512 .f32) : FVec Ideal S4096x512 .f32 :=
  maximumf (addf (matmul dot_S4096x52_S512x52_S4096x512_1_1_0_0_n_n none h (shapeCast S512x52 w shapeCasts_S512x52_S512x52) (constant S4096x512 .f32 0x00000000#32))
      (broadcastTo S4096x512 (shapeCast S1x512 b shapeCasts_S512_S1x512) broadcasts_S1x512_S4096x512))
    (broadcast S4096x512 (Scalar.ofBits .f32 0x00000000#32))

theorem layer52_apply (h : FVec Ideal S4096x52 .bf16) (w : FVec Ideal S512x52 .bf16) (b : FVec Ideal S512 .f32) (r : Fin 4096) (o : Fin 512) :
    layer52 h w b (ix2 r o) = pos (affine (fun k => h (ix2 r k)) w b o) := by
  unfold layer52
  show max (matmul dot_S4096x52_S512x52_S4096x512_1_1_0_0_n_n none h (shapeCast S512x52 w shapeCasts_S512x52_S512x52) (constant S4096x512 .f32 0x00000000#32) (ix2 r o)
      + broadcastTo S4096x512 (shapeCast S1x512 b shapeCasts_S512_S1x512) broadcasts_S1x512_S4096x512 (ix2 r o)) (Ideal.ofBits .f32 0x00000000#32) = _
  rw [matmul_S4096x52_S512x52_apply, bias_rows_apply, shapeCast_self, Ideal.ofBits_zero_f32]
  rfl

/-- A later layer: 512 features against [512, 512] weights. -/
def layer512 (h : FVec Ideal S4096x512 .bf16) (w : FVec Ideal S512x512 .bf16) (b : FVec Ideal S512 .f32) : FVec Ideal S4096x512 .f32 :=
  maximumf (addf (matmul dot_S4096x512_S512x512_S4096x512_1_1_0_0_n_n none h (shapeCast S512x512 w shapeCasts_S512x512_S512x512) (constant S4096x512 .f32 0x00000000#32))
      (broadcastTo S4096x512 (shapeCast S1x512 b shapeCasts_S512_S1x512) broadcasts_S1x512_S4096x512))
    (broadcast S4096x512 (Scalar.ofBits .f32 0x00000000#32))

theorem layer512_apply (h : FVec Ideal S4096x512 .bf16) (w : FVec Ideal S512x512 .bf16) (b : FVec Ideal S512 .f32) (r : Fin 4096) (o : Fin 512) :
    layer512 h w b (ix2 r o) = pos (affine (fun k => h (ix2 r k)) w b o) := by
  unfold layer512
  show max (matmul dot_S4096x512_S512x512_S4096x512_1_1_0_0_n_n none h (shapeCast S512x512 w shapeCasts_S512x512_S512x512) (constant S4096x512 .f32 0x00000000#32) (ix2 r o)
      + broadcastTo S4096x512 (shapeCast S1x512 b shapeCasts_S512_S1x512) broadcasts_S1x512_S4096x512 (ix2 r o)) (Ideal.ofBits .f32 0x00000000#32) = _
  rw [matmul_S4096x512_S512x512_apply, bias_rows_apply, shapeCast_self, Ideal.ofBits_zero_f32]
  rfl

/-! ## The sum over the pairs -/

/-- The reduced index o with row r put back is (r, o). -/
theorem lift_rows (o : Fin 512) (r : Fin (S4096x512.size 0)) :
    reduces_S4096x512_S512.lift (ix1 o) r = ix2 (⟨r.val, r.isLt⟩ : Fin 4096) o := by
  funext c; apply Fin.ext
  match c with
  | ⟨0, _⟩ => rfl
  | ⟨1, _⟩ => rfl

/-- The reduction along the row axis: entry o is the sum over the 4096 rows of their entry o. -/
theorem sum_rows_apply (v : FVec Ideal S4096x512 .f32) (o : Fin 512) :
    multiReduction .add [0] S512 v 0x00000000#32 reduces_S4096x512_S512 (.inl rfl) rfl (ix1 o) = ∑ r : Fin 4096, v (ix2 r o) := by
  refine (Ideal.multiReduction_add_single v 0x00000000#32 reduces_S4096x512_S512 (.inl rfl) rfl (ix1 o)).trans ?_
  show ∑ r : Fin 4096, v (reduces_S4096x512_S512.lift (ix1 o) r) = _
  exact Finset.sum_congr rfl fun r _ => congrArg v (lift_rows o r)

/-! ## The join with the question's features -/

/-- The 512 sums followed by the 256 question features, as one row of 768. -/
theorem join_question_apply (a : FVec Ideal S1x512 .bf16) (q : FVec Ideal S1x256 .bf16) (k : Fin 768) :
    concatenate S1x768 1 [⟨S1x512, a⟩, ⟨S1x256, q⟩] concatenates_S1x512_S1x256_S1x768_d1 (ix2 (0 : Fin 1) k)
      = if h : k.val < 512 then a (ix2 (0 : Fin 1) (⟨k.val, h⟩ : Fin 512))
        else q (ix2 (0 : Fin 1) (⟨k.val - 512, by have := k.isLt; omega⟩ : Fin 256)) := by
  by_cases h : k.val < 512
  · rw [dif_pos h]
    exact concatenate_pair_apply_left (1 : Fin 2) a q concatenates_S1x512_S1x256_S1x768_d1 (ix2 (0 : Fin 1) k) rfl
      (ix2 (0 : Fin 1) (⟨k.val, h⟩ : Fin 512)) (fun c => by
        match c with
        | ⟨0, _⟩ => rfl
        | ⟨1, _⟩ => rfl)
  · rw [dif_neg h]
    exact concatenate_pair_apply_right (1 : Fin 2) a q concatenates_S1x512_S1x256_S1x768_d1 (ix2 (0 : Fin 1) k) rfl rfl
      (ix2 (0 : Fin 1) (⟨k.val - 512, by have := k.isLt; omega⟩ : Fin 256)) (fun c hc => by
        match c with
        | ⟨0, _⟩ => rfl
        | ⟨1, _⟩ => exact absurd rfl hc)
      (by show k.val - 512 + 512 = k.val; omega)

/-! ## The layers on the one joined row -/

/-- The layer after the join: 768 features against [512, 768] weights, on one row. -/
def row768 (h : FVec Ideal S1x768 .bf16) (w : FVec Ideal S512x768 .bf16) (b : FVec Ideal S512 .f32) : FVec Ideal S1x512 .f32 :=
  maximumf (addf (matmul dot_S1x768_S512x768_S1x512_1_1_0_0_n_n none h (shapeCast S512x768 w shapeCasts_S512x768_S512x768) (constant S1x512 .f32 0x00000000#32))
      (shapeCast S1x512 b shapeCasts_S512_S1x512))
    (broadcast S1x512 (Scalar.ofBits .f32 0x00000000#32))

theorem row768_apply (h : FVec Ideal S1x768 .bf16) (w : FVec Ideal S512x768 .bf16) (b : FVec Ideal S512 .f32) (o : Fin 512) :
    row768 h w b (ix2 (0 : Fin 1) o) = pos (affine (fun k => h (ix2 (0 : Fin 1) k)) w b o) := by
  unfold row768
  show max (matmul dot_S1x768_S512x768_S1x512_1_1_0_0_n_n none h (shapeCast S512x768 w shapeCasts_S512x768_S512x768) (constant S1x512 .f32 0x00000000#32) (ix2 (0 : Fin 1) o)
      + shapeCast S1x512 b shapeCasts_S512_S1x512 (ix2 (0 : Fin 1) o)) (Ideal.ofBits .f32 0x00000000#32) = _
  rw [matmul_S1x768_S512x768_apply, shapeCast_a_1a_apply, shapeCast_self, Ideal.ofBits_zero_f32]
  rfl

/-- The next layer: 512 features against [512, 512] weights, on one row. -/
def row512 (h : FVec Ideal S1x512 .bf16) (w : FVec Ideal S512x512 .bf16) (b : FVec Ideal S512 .f32) : FVec Ideal S1x512 .f32 :=
  maximumf (addf (matmul dot_S1x512_S512x512_S1x512_1_1_0_0_n_n none h (shapeCast S512x512 w shapeCasts_S512x512_S512x512) (constant S1x512 .f32 0x00000000#32))
      (shapeCast S1x512 b shapeCasts_S512_S1x512))
    (broadcast S1x512 (Scalar.ofBits .f32 0x00000000#32))

theorem row512_apply (h : FVec Ideal S1x512 .bf16) (w : FVec Ideal S512x512 .bf16) (b : FVec Ideal S512 .f32) (o : Fin 512) :
    row512 h w b (ix2 (0 : Fin 1) o) = pos (affine (fun k => h (ix2 (0 : Fin 1) k)) w b o) := by
  unfold row512
  show max (matmul dot_S1x512_S512x512_S1x512_1_1_0_0_n_n none h (shapeCast S512x512 w shapeCasts_S512x512_S512x512) (constant S1x512 .f32 0x00000000#32) (ix2 (0 : Fin 1) o)
      + shapeCast S1x512 b shapeCasts_S512_S1x512 (ix2 (0 : Fin 1) o)) (Ideal.ofBits .f32 0x00000000#32) = _
  rw [matmul_S1x512_S512x512_apply, shapeCast_a_1a_apply, shapeCast_self, Ideal.ofBits_zero_f32]
  rfl

/-- The last layer's product, 512 features against [28, 512] weights, with its bias made one row: the 28 scores. -/
theorem scores_apply (h : FVec Ideal S1x512 .bf16) (w : FVec Ideal S28x512 .bf16) (b : FVec Ideal S28 .f32) (j : Fin 28) :
    matmul dot_S1x512_S28x512_S1x28_1_1_0_0_n_n none h (shapeCast S28x512 w shapeCasts_S28x512_S28x512) (constant S1x28 .f32 0x00000000#32) (ix2 (0 : Fin 1) j)
      + shapeCast S1x28 b shapeCasts_S28_S1x28 (ix2 (0 : Fin 1) j)
      = affine (fun k => h (ix2 (0 : Fin 1) k)) w b j := by
  rw [matmul_S1x512_S28x512_apply, shapeCast_a_1a_apply, shapeCast_self]
  rfl

end Cert.RelNet.Ker

end
-- ==== Proof.KernelSoftmax.lean ====
/-
  The kernel's log-softmax of one row of 28 scores, read at an entry.  The row's maximum is a reduction along the
  row from −∞, taken once more against −∞; each score less that maximum is exponentiated, the exponentials are
  summed along the row, and the logarithm of the sum is taken off each difference.
-/
import proofs.«155540_j6966436954182_1_alg».proof.Proof.Gen.KernelIdeal.Skeleton
import proofs.«155540_j6966436954182_1_alg».proof.Proof.RelNet
import Idealize.ShloMosaic.Lib.ValueIdx
import Idealize.ShloMosaic.Lib.ValueLayout
import Idealize.ShloMosaic.Lib.Pipeline.Value
import Idealize.ShloMosaic.PureOps.Ideal.Laws

noncomputable section

namespace Cert.RelNet.Ker

open Cert.KernelIdeal Cert.KernelIdeal.Gen Idealize.ShloMosaic Idealize.ShloMosaic.ValueIdx Cert.RelNet

/-- The reduced index of a one-row array with column k put back is (0, k). -/
theorem lift_cols (u : Fin 1) (k : Fin (S1x28.size 1)) :
    reduces_S1x28_S1.lift (ix1 u) k = ix2 (0 : Fin 1) (⟨k.val, k.isLt⟩ : Fin 28) := by
  funext c; apply Fin.ext
  match c with
  | ⟨0, _⟩ => show u.val = 0; omega
  | ⟨1, _⟩ => rfl

/-- The row's maximum from −∞: the fold of max over the 28 entries. -/
theorem max_row_apply (v : FVec Ideal S1x28 .f32) (u : Fin 1) :
    multiReduction .maximumf [1] S1 v 0xFF800000#32 reduces_S1x28_S1 (.inl rfl) rfl (ix1 u)
      = (Finset.univ : Finset (Fin 28)).fold max negInf (fun k => v (ix2 (0 : Fin 1) k)) := by
  refine (Ideal.multiReduction_maximumf_single v 0xFF800000#32 reduces_S1x28_S1 (.inl rfl) rfl (ix1 u)).trans ?_
  show (Finset.univ : Finset (Fin 28)).fold max negInf (v ∘ reduces_S1x28_S1.lift (ix1 u)) = _
  exact congrArg (fun f => (Finset.univ : Finset (Fin 28)).fold max negInf f) (funext fun k => congrArg v (lift_cols u k))

/-- The row's sum: the sum of the 28 entries. -/
theorem sum_row_apply (v : FVec Ideal S1x28 .f32) (u : Fin 1) :
    multiReduction .add [1] S1 v 0x00000000#32 reduces_S1x28_S1 (.inl rfl) rfl (ix1 u) = ∑ k : Fin 28, v (ix2 (0 : Fin 1) k) := by
  refine (Ideal.multiReduction_add_single v 0x00000000#32 reduces_S1x28_S1 (.inl rfl) rfl (ix1 u)).trans ?_
  show ∑ k : Fin 28, v (reduces_S1x28_S1.lift (ix1 u) k) = _
  exact Finset.sum_congr rfl fun k _ => congrArg v (lift_cols u k)

/-- One number given two unit axes and broadcast along the row: every entry is that number. -/
theorem spread_apply (v : FVec Ideal S1 .f32) (j : Fin 28) :
    broadcastTo S1x28 (shapeCast S1x1 v shapeCasts_S1_S1x1) broadcasts_S1x1_S1x28 (ix2 (0 : Fin 1) j) = v (ix1 (0 : Fin 1)) := by
  refine (broadcastTo_apply _ broadcasts_S1x1_S1x28 (ix2 (0 : Fin 1) j) (ix2 (0 : Fin 1) (0 : Fin 1)) fun a => ?_).trans ?_
  · match a with
    | ⟨0, _⟩ => rfl
    | ⟨1, _⟩ => rfl
  · exact shapeCast_a_1a_apply v shapeCasts_S1_S1x1 0 0

/-- The row's maximum as the kernel takes it. -/
def topK (z : FVec Ideal S1x28 .f32) : FVec Ideal S1 .f32 :=
  maximumf (broadcast S1 (Scalar.ofBits .f32 0xFF800000#32)) (multiReduction .maximumf [1] S1 z 0xFF800000#32 reduces_S1x28_S1 (.inl rfl) rfl)

/-- The scores less the row's maximum. -/
def shiftedK (z : FVec Ideal S1x28 .f32) : FVec Ideal S1x28 .f32 :=
  subf z (broadcastTo S1x28 (shapeCast S1x1 (topK z) shapeCasts_S1_S1x1) broadcasts_S1x1_S1x28)

/-- The log-softmax of the row. -/
def logSoftmaxK (z : FVec Ideal S1x28 .f32) : FVec Ideal S1x28 .f32 :=
  subf (shiftedK z) (broadcastTo S1x28
    (log (shapeCast S1x1 (multiReduction .add [1] S1 (exp (shiftedK z)) 0x00000000#32 reduces_S1x28_S1 (.inl rfl) rfl) shapeCasts_S1_S1x1))
    broadcasts_S1x1_S1x28)

theorem topK_apply (z : FVec Ideal S1x28 .f32) :
    topK z (ix1 (0 : Fin 1)) = max negInf ((Finset.univ : Finset (Fin 28)).fold max negInf (fun k => z (ix2 (0 : Fin 1) k))) := by
  unfold topK
  show max (Ideal.ofBits .f32 0xFF800000#32) (multiReduction .maximumf [1] S1 z 0xFF800000#32 reduces_S1x28_S1 (.inl rfl) rfl (ix1 (0 : Fin 1))) = _
  rw [max_row_apply]

theorem shiftedK_apply (z : FVec Ideal S1x28 .f32) (j : Fin 28) :
    shiftedK z (ix2 (0 : Fin 1) j) = z (ix2 (0 : Fin 1) j) - topK z (ix1 (0 : Fin 1)) := by
  unfold shiftedK
  show z (ix2 (0 : Fin 1) j) - broadcastTo S1x28 (shapeCast S1x1 (topK z) shapeCasts_S1_S1x1) broadcasts_S1x1_S1x28 (ix2 (0 : Fin 1) j) = _
  rw [spread_apply]

theorem logSoftmaxK_apply (z : FVec Ideal S1x28 .f32) (j : Fin 28) :
    logSoftmaxK z (ix2 (0 : Fin 1) j)
      = shiftedK z (ix2 (0 : Fin 1) j) - Ideal.log (∑ k : Fin 28, Ideal.exp (shiftedK z (ix2 (0 : Fin 1) k))) := by
  unfold logSoftmaxK
  show shiftedK z (ix2 (0 : Fin 1) j) - broadcastTo S1x28
    (log (shapeCast S1x1 (multiReduction .add [1] S1 (exp (shiftedK z)) 0x00000000#32 reduces_S1x28_S1 (.inl rfl) rfl) shapeCasts_S1_S1x1))
    broadcasts_S1x1_S1x28 (ix2 (0 : Fin 1) j) = _
  refine congrArg (shiftedK z (ix2 (0 : Fin 1) j) - ·) ?_
  refine (broadcastTo_apply _ broadcasts_S1x1_S1x28 (ix2 (0 : Fin 1) j) (ix2 (0 : Fin 1) (0 : Fin 1)) fun a => ?_).trans ?_
  · match a with
    | ⟨0, _⟩ => rfl
    | ⟨1, _⟩ => rfl
  · show Ideal.log (shapeCast S1x1 (multiReduction .add [1] S1 (exp (shiftedK z)) 0x00000000#32 reduces_S1x28_S1 (.inl rfl) rfl) shapeCasts_S1_S1x1 (ix2 (0 : Fin 1) (0 : Fin 1))) = _
    rw [shapeCast_a_1a_apply, sum_row_apply]
    rfl

end Cert.RelNet.Ker

end
-- ==== Proof.KernelStored.lean ====
/-
  What the kernel's body stores for one batch element, entry by entry, is the network's result for that batch element:
  the body's arithmetic is the seven layers, the sum over the pairs, the join with the question and the log-softmax,
  each read at an entry in the modules this one imports, and composed here in the order the body applies them.
-/
import proofs.«155540_j6966436954182_1_alg».proof.Proof.Gen.KernelIdeal.Skeleton
import proofs.«155540_j6966436954182_1_alg».proof.Proof.RelNet
import proofs.«155540_j6966436954182_1_alg».proof.Proof.Gen.KernelIdeal.Frame
import proofs.«155540_j6966436954182_1_alg».proof.Proof.KernelPairs
import proofs.«155540_j6966436954182_1_alg».proof.Proof.KernelLayers
import proofs.«155540_j6966436954182_1_alg».proof.Proof.KernelSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.RelNet.Ker

open Cert.KernelIdeal Cert.KernelIdeal.Gen Idealize.ShloMosaic Idealize.ShloMosaic.ValueIdx Cert.RelNet

variable (A : Args) (b : Fin 32)

/-! ## The three layers the first part of the body applies to the pairs -/

theorem pay2_eq (x0 : FVec Ideal S1x64x26 .bf16) (w0 : FVec Ideal S512x52 .bf16) (b0 : FVec Ideal S512 .f32) (w1 : FVec Ideal S512x512 .bf16)
    (b1 : FVec Ideal S512 .f32) (w2 : FVec Ideal S512x512 .bf16) (b2 : FVec Ideal S512 .f32) :
    k0_pay2 (F := Ideal) x0 w0 b0 w1 b1 w2 b2
      = truncf .bf16 (layer512 (truncf .bf16 (layer512 (truncf .bf16 (layer52 (pairsK x0) w0 b0) bitsLt_bf16_f32) w1 b1) bitsLt_bf16_f32) w2 b2) bitsLt_bf16_f32 := rfl

section
variable (x0 : FVec Ideal S1x64x26 .bf16) (hx : ∀ (p : Fin 64) (k : Fin 26), x0 (ix3 (0 : Fin 1) p k) = A.x (ix3 b p k))
include hx

/-- The kernel's pair features are the network's. -/
theorem pairs_eq (r : Fin 4096) (k : Fin 52) : pairsK x0 (ix2 r k) = pair A b r k := by
  rw [pairsK_apply]
  unfold pair
  by_cases h : k.val < 26
  · rw [dif_pos h, dif_pos h, hx]
  · rw [dif_neg h, dif_neg h, hx]

theorem layer0_eq (r : Fin 4096) (o : Fin 512) : layer52 (pairsK x0) A.W0 A.b0 (ix2 r o) = g0 A b r o := by
  rw [layer52_apply]
  exact congrArg (fun h => pos (affine h A.W0 A.b0 o)) (funext fun k => pairs_eq A b x0 hx r k)

theorem layer1_eq (r : Fin 4096) (o : Fin 512) :
    layer512 (truncf .bf16 (layer52 (pairsK x0) A.W0 A.b0) bitsLt_bf16_f32) A.W1 A.b1 (ix2 r o) = g1 A b r o := by
  rw [layer512_apply]
  exact congrArg (fun h => pos (affine h A.W1 A.b1 o)) (funext fun k => layer0_eq A b x0 hx r k)

theorem layer2_eq (r : Fin 4096) (o : Fin 512) :
    layer512 (truncf .bf16 (layer512 (truncf .bf16 (layer52 (pairsK x0) A.W0 A.b0) bitsLt_bf16_f32) A.W1 A.b1) bitsLt_bf16_f32) A.W2 A.b2 (ix2 r o)
      = g2 A b r o := by
  rw [layer512_apply]
  exact congrArg (fun h => pos (affine h A.W2 A.b2 o)) (funext fun k => layer1_eq A b x0 hx r k)

/-- The first part's result at (r, o) is the third layer's output for pair r. -/
theorem pay2_apply (r : Fin 4096) (o : Fin 512) :
    k0_pay2 (F := Ideal) x0 A.W0 A.b0 A.W1 A.b1 A.W2 A.b2 (ix2 r o) = g2 A b r o := by
  rw [pay2_eq]
  exact layer2_eq A b x0 hx r o

end

/-! ## The fourth layer, the sum, the join and the last layers -/

theorem pay3_eq (v39 : FVec Ideal S4096x512 .bf16) (w3 : FVec Ideal S512x512 .bf16) (b3 : FVec Ideal S512 .f32) (q : FVec Ideal S1x1x256 .bf16)
    (w4 : FVec Ideal S512x768 .bf16) (b4 : FVec Ideal S512 .f32) (w5 : FVec Ideal S512x512 .bf16) (b5 : FVec Ideal S512 .f32) (w6 : FVec Ideal S28x512 .bf16) :
    k0_pay3 (F := Ideal) v39 w3 b3 q w4 b4 w5 b5 w6
      = matmul dot_S1x512_S28x512_S1x28_1_1_0_0_n_n none
          (truncf .bf16 (row512 (truncf .bf16 (row768
            (concatenate S1x768 1
              [⟨S1x512, truncf .bf16 (shapeCast S1x512 (multiReduction .add [0] S512 (layer512 v39 w3 b3) 0x00000000#32 reduces_S4096x512_S512 (.inl rfl) rfl) shapeCasts_S512_S1x512) bitsLt_bf16_f32⟩,
               ⟨S1x256, shapeCast S1x256 q shapeCasts_S1x1x256_S1x256⟩]
              concatenates_S1x512_S1x256_S1x768_d1)
            w4 b4) bitsLt_bf16_f32) w5 b5) bitsLt_bf16_f32)
          (shapeCast S28x512 w6 shapeCasts_S28x512_S28x512) (constant S1x28 .f32 0x00000000#32) := rfl

section
variable (v39 : FVec Ideal S4096x512 .bf16) (hv : ∀ (r : Fin 4096) (o : Fin 512), v39 (ix2 r o) = g2 A b r o)
  (q : FVec Ideal S1x1x256 .bf16) (hq : ∀ k : Fin 256, q (ix3 (0 : Fin 1) (0 : Fin 1) k) = A.q (ix2 b k))
include hv hq

theorem layer3_eq (r : Fin 4096) (o : Fin 512) : layer512 v39 A.W3 A.b3 (ix2 r o) = g3 A b r o := by
  rw [layer512_apply]
  exact congrArg (fun h => pos (affine h A.W3 A.b3 o)) (funext fun k => hv r k)

/-- The joined row: the sums over the pairs, then the question's features. -/
theorem joined_eq (k : Fin 768) :
    concatenate S1x768 1
      [⟨S1x512, truncf .bf16 (shapeCast S1x512 (multiReduction .add [0] S512 (layer512 v39 A.W3 A.b3) 0x00000000#32 reduces_S4096x512_S512 (.inl rfl) rfl) shapeCasts_S512_S1x512) bitsLt_bf16_f32⟩,
       ⟨S1x256, shapeCast S1x256 q shapeCasts_S1x1x256_S1x256⟩]
      concatenates_S1x512_S1x256_S1x768_d1 (ix2 (0 : Fin 1) k) = joined A b k := by
  rw [join_question_apply]
  unfold joined
  by_cases h : k.val < 512
  · rw [dif_pos h, dif_pos h]
    show shapeCast S1x512 (multiReduction .add [0] S512 (layer512 v39 A.W3 A.b3) 0x00000000#32 reduces_S4096x512_S512 (.inl rfl) rfl) shapeCasts_S512_S1x512 (ix2 (0 : Fin 1) (⟨k.val, h⟩ : Fin 512)) = _
    rw [shapeCast_a_1a_apply, sum_rows_apply]
    unfold agg
    exact Finset.sum_congr rfl fun r _ => layer3_eq A b v39 hv q hq r _
  · rw [dif_neg h, dif_neg h]
    refine (shapeCast_1ab_ab_apply q shapeCasts_S1x1x256_S1x256 (0 : Fin 1) _).trans ?_
    exact hq _

theorem f0_eq (o : Fin 512) :
    row768 (concatenate S1x768 1
      [⟨S1x512, truncf .bf16 (shapeCast S1x512 (multiReduction .add [0] S512 (layer512 v39 A.W3 A.b3) 0x00000000#32 reduces_S4096x512_S512 (.inl rfl) rfl) shapeCasts_S512_S1x512) bitsLt_bf16_f32⟩,
       ⟨S1x256, shapeCast S1x256 q shapeCasts_S1x1x256_S1x256⟩]
      concatenates_S1x512_S1x256_S1x768_d1) A.W4 A.b4 (ix2 (0 : Fin 1) o) = f0 A b o := by
  rw [row768_apply]
  exact congrArg (fun h => pos (affine h A.W4 A.b4 o)) (funext fun k => joined_eq A b v39 hv q hq k)

theorem f1_eq (o : Fin 512) :
    row512 (truncf .bf16 (row768 (concatenate S1x768 1
      [⟨S1x512, truncf .bf16 (shapeCast S1x512 (multiReduction .add [0] S512 (layer512 v39 A.W3 A.b3) 0x00000000#32 reduces_S4096x512_S512 (.inl rfl) rfl) shapeCasts_S512_S1x512) bitsLt_bf16_f32⟩,
       ⟨S1x256, shapeCast S1x256 q shapeCasts_S1x1x256_S1x256⟩]
      concatenates_S1x512_S1x256_S1x768_d1) A.W4 A.b4) bitsLt_bf16_f32) A.W5 A.b5 (ix2 (0 : Fin 1) o) = f1 A b o := by
  rw [row512_apply]
  exact congrArg (fun h => pos (affine h A.W5 A.b5 o)) (funext fun k => f0_eq A b v39 hv q hq k)

/-- The second part's product plus the last bias made a row: the 28 scores. -/
theorem score_eq (x15 : FVec Ideal S28 .f32) (h15 : x15 = A.b6) (j : Fin 28) :
    addf (k0_pay3 (F := Ideal) v39 A.W3 A.b3 q A.W4 A.b4 A.W5 A.b5 A.W6) (k0_pay4 (F := Ideal) x15) (ix2 (0 : Fin 1) j) = score A b j := by
  subst h15
  rw [pay3_eq]
  refine (scores_apply _ A.W6 A.b6 j).trans ?_
  exact congrArg (fun h => affine h A.W6 A.b6 j) (funext fun k => f1_eq A b v39 hv q hq k)

end

/-! ## The log-softmax and the store -/

theorem pay1_eq (s c : FVec Ideal S1x28 .f32) :
    k0_pay1 (F := Ideal) s c = shapeCast S1x1x28 (logSoftmaxK (addf s c)) shapeCasts_S1x28_S1x1x28 := rfl

/-- From the scores to the result: the log-softmax of the row. -/
theorem logSoftmax_eq (z : FVec Ideal S1x28 .f32) (hz : ∀ k : Fin 28, z (ix2 (0 : Fin 1) k) = score A b k) (j : Fin 28) :
    logSoftmaxK z (ix2 (0 : Fin 1) j) = out A b j := by
  have hf : (fun k : Fin 28 => z (ix2 (0 : Fin 1) k)) = score A b := funext hz
  have ht : topK z (ix1 (0 : Fin 1)) = top A b := by rw [topK_apply, hf]; rfl
  have hs : ∀ k : Fin 28, shiftedK z (ix2 (0 : Fin 1) k) = shifted A b k := fun k => by
    rw [shiftedK_apply, ht, hz]; rfl
  rw [logSoftmaxK_apply, hs j]
  unfold out
  exact congrArg (fun f : Fin 28 → EReal => shifted A b j - Ideal.log (∑ k : Fin 28, Ideal.exp (f k))) (funext hs)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- WHAT THE BODY STORES for batch element `b`: from the batch element's objects and question and the whole weights and
    biases, entry (0, 0, j) of the stored block is the network's result at (b, j). -/
theorem stored_eq (x0 : Vec Ideal S1x64x26 .bf16) (x1 : Vec Ideal S1x1x256 .bf16) (x2 : Vec Ideal S512x52 .bf16) (x3 : Vec Ideal S512 .f32)
    (x4 : Vec Ideal S512x512 .bf16) (x5 : Vec Ideal S512 .f32) (x6 : Vec Ideal S512x512 .bf16) (x7 : Vec Ideal S512 .f32)
    (x8 : Vec Ideal S512x512 .bf16) (x9 : Vec Ideal S512 .f32) (x10 : Vec Ideal S512x768 .bf16) (x11 : Vec Ideal S512 .f32)
    (x12 : Vec Ideal S512x512 .bf16) (x13 : Vec Ideal S512 .f32) (x14 : Vec Ideal S28x512 .bf16) (x15 : Vec Ideal S28 .f32)
    (hx : ∀ (p : Fin 64) (k : Fin 26), x0 (ix3 (0 : Fin 1) p k) = A.x (ix3 b p k))
    (hq : ∀ k : Fin 256, x1 (ix3 (0 : Fin 1) (0 : Fin 1) k) = A.q (ix2 b k))
    (h2 : x2 = A.W0) (h3 : x3 = A.b0) (h4 : x4 = A.W1) (h5 : x5 = A.b1) (h6 : x6 = A.W2) (h7 : x7 = A.b2) (h8 : x8 = A.W3) (h9 : x9 = A.b3)
    (h10 : x10 = A.W4) (h11 : x11 = A.b4) (h12 : x12 = A.W5) (h13 : x13 = A.b5) (h14 : x14 = A.W6) (h15 : x15 = A.b6) (j : Fin 28) :
    out0_16 (F := Ideal) x0 x1 x2 x3 x4 x5 x6 x7 x8 x9 x10 x11 x12 x13 x14 x15 (ix3 (0 : Fin 1) (0 : Fin 1) j) = out A b j := by
  subst h2 h3 h4 h5 h6 h7 h8 h9 h10 h11 h12 h13 h14
  unfold out0_16
  rw [View.canon_unit_zero hz3]
  simp only [View.ld_unit_zero (S := S1x64x26) hz3, View.ld_unit_zero (S := S1x1x256) hz3, View.ld_unit_zero (S := S512x52) hz2,
    View.ld_unit_zero (S := S512x512) hz2, View.ld_unit_zero (S := S512x768) hz2, View.ld_unit_zero (S := S28x512) hz2,
    View.ld_unit_zero (S := S512) hz1, View.ld_unit_zero (S := S28) hz1]
  rw [pay1_eq]
  refine (shapeCast_ab_1ab_apply _ shapeCasts_S1x28_S1x1x28 (0 : Fin 1) (0 : Fin 1) j).trans ?_
  refine logSoftmax_eq A b _ (fun k => ?_) j
  exact score_eq A b _ (fun r o => pay2_apply A b x0 hx r o) x1 hq x15 h15 k

end Cert.RelNet.Ker

end
-- ==== Proof.KernelRun.lean ====
/-
  The kernel's run, read: after it the result array holds the network's result.

  The grid has one point per batch element.  Point t stages the batch element's objects and question (block t of the
  two arrays the host operations before the region make from the arguments by a change of float format, which at the
  exact values is the identity, and a reshape) and the whole weights and biases; what the body stores is the network's
  result for batch element t (the module imported here), written back as block t of the [32, 1, 28] result array.
  The 32 blocks cover that array, and the host's reshape after the region drops its unit axis.
-/
import proofs.«155540_j6966436954182_1_alg».proof.Proof.KernelStored
import Idealize.ShloMosaic.Lib.Pipeline.Value
import Idealize.ShloMosaic.Lib.StableHlo.Run
import Idealize.ShloMosaic.Lib.Tactic

noncomputable section

namespace Cert.RelNet.Ker

open Cert.KernelIdeal Cert.KernelIdeal.Gen Idealize.ShloMosaic Idealize.ShloMosaic.TcCoe Idealize.SL.Sem
open Idealize.ShloMosaic.ValueIdx Cert.RelNet
open Idealize.ShloMosaic.Pipeline (Dat)

variable (m : (ℓ : Loc nD τ sig) → Buf (Elt Ideal) ℓ) (ρ : Dev nD → PrngReg)

/-- The network's inputs as the memory holds them at the launch. -/
def argsOf (c : Dev nD) : Args :=
  ⟨m ((c : Thread nD τ).loc main_arg0),
    m ((c : Thread nD τ).loc main_arg1),
    m ((c : Thread nD τ).loc main_arg2),
    m ((c : Thread nD τ).loc main_arg3),
    m ((c : Thread nD τ).loc main_arg4),
    m ((c : Thread nD τ).loc main_arg5),
    m ((c : Thread nD τ).loc main_arg6),
    m ((c : Thread nD τ).loc main_arg7),
    m ((c : Thread nD τ).loc main_arg8),
    m ((c : Thread nD τ).loc main_arg9),
    m ((c : Thread nD τ).loc main_arg10),
    m ((c : Thread nD τ).loc main_arg11),
    m ((c : Thread nD τ).loc main_arg12),
    m ((c : Thread nD τ).loc main_arg13),
    m ((c : Thread nD τ).loc main_arg14),
    m ((c : Thread nD τ).loc main_arg15)⟩

/-! ## The arrays the host operations before the region make -/

/-- The objects in the kernel's float format: at the exact values, the objects. -/
theorem V_main_v0 (c : Dev nD) : (V m c main_v0 : FVec Ideal S32x64x26 .bf16) = m ((c : Thread nD τ).loc main_arg0) := by
  show StableHlo.after hostOps0 (fun b => m (c, b)) (Proc.devRef .tc main_v0) = _
  after_results
  rfl

/-- The questions in the kernel's float format, given a unit middle axis. -/
theorem V_main_v2 (c : Dev nD) :
    (V m c main_v2 : FVec Ideal S32x1x256 .bf16) = shapeCast S32x1x256 (m ((c : Thread nD τ).loc main_arg1)) shapeCasts_S32x256_S32x1x256 := by
  show StableHlo.after hostOps0 (fun b => m (c, b)) (Proc.devRef .tc main_v2) = _
  after_results
  rfl

/-- The weights in the kernel's float format: at the exact values, the weights. -/
theorem V_main_v3 (c : Dev nD) : (V m c main_v3 : FVec Ideal S512x52 .bf16) = m ((c : Thread nD τ).loc main_arg2) := by
  show StableHlo.after hostOps0 (fun b => m (c, b)) (Proc.devRef .tc main_v3) = _
  after_results
  rfl
theorem V_main_v4 (c : Dev nD) : (V m c main_v4 : FVec Ideal S512x512 .bf16) = m ((c : Thread nD τ).loc main_arg4) := by
  show StableHlo.after hostOps0 (fun b => m (c, b)) (Proc.devRef .tc main_v4) = _
  after_results
  rfl
theorem V_main_v5 (c : Dev nD) : (V m c main_v5 : FVec Ideal S512x512 .bf16) = m ((c : Thread nD τ).loc main_arg6) := by
  show StableHlo.after hostOps0 (fun b => m (c, b)) (Proc.devRef .tc main_v5) = _
  after_results
  rfl
theorem V_main_v6 (c : Dev nD) : (V m c main_v6 : FVec Ideal S512x512 .bf16) = m ((c : Thread nD τ).loc main_arg8) := by
  show StableHlo.after hostOps0 (fun b => m (c, b)) (Proc.devRef .tc main_v6) = _
  after_results
  rfl
theorem V_main_v7 (c : Dev nD) : (V m c main_v7 : FVec Ideal S512x768 .bf16) = m ((c : Thread nD τ).loc main_arg10) := by
  show StableHlo.after hostOps0 (fun b => m (c, b)) (Proc.devRef .tc main_v7) = _
  after_results
  rfl
theorem V_main_v8 (c : Dev nD) : (V m c main_v8 : FVec Ideal S512x512 .bf16) = m ((c : Thread nD τ).loc main_arg12) := by
  show StableHlo.after hostOps0 (fun b => m (c, b)) (Proc.devRef .tc main_v8) = _
  after_results
  rfl
theorem V_main_v9 (c : Dev nD) : (V m c main_v9 : FVec Ideal S28x512 .bf16) = m ((c : Thread nD τ).loc main_arg14) := by
  show StableHlo.after hostOps0 (fun b => m (c, b)) (Proc.devRef .tc main_v9) = _
  after_results
  rfl

/-! ## The blocks the grid's points stage -/

/-- The grid's point is the batch element: the objects', the questions' and the result's block index is (t, 0, 0). -/
theorem idx_batch : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_16.index t (0 : Fin 3) = t.val ∧ win0_16.index t (1 : Fin 3) = 0 ∧ win0_16.index t (2 : Fin 3) = 0 :=
  (by decide +kernel : ∀ t : Fin grid0.N, _)

/-- The weights are staged whole: their block index is zero at every point. -/
theorem idx_whole2 : ∀ t : Fin cfg0.N,
    win0_2.index t (0 : Fin 2) = 0 ∧ win0_2.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_8.index t (0 : Fin 2) = 0 ∧ win0_8.index t (1 : Fin 2) = 0
    ∧ win0_10.index t (0 : Fin 2) = 0 ∧ win0_10.index t (1 : Fin 2) = 0
    ∧ win0_12.index t (0 : Fin 2) = 0 ∧ win0_12.index t (1 : Fin 2) = 0
    ∧ win0_14.index t (0 : Fin 2) = 0 ∧ win0_14.index t (1 : Fin 2) = 0 :=
  (by decide +kernel : ∀ t : Fin grid0.N, _)

/-- The biases are staged whole: their block index is zero at every point. -/
theorem idx_whole1 : ∀ t : Fin cfg0.N,
    win0_3.index t (0 : Fin 1) = 0
    ∧ win0_5.index t (0 : Fin 1) = 0
    ∧ win0_7.index t (0 : Fin 1) = 0
    ∧ win0_9.index t (0 : Fin 1) = 0
    ∧ win0_11.index t (0 : Fin 1) = 0
    ∧ win0_13.index t (0 : Fin 1) = 0
    ∧ win0_15.index t (0 : Fin 1) = 0 :=
  (by decide +kernel : ∀ t : Fin grid0.N, _)

theorem lt_batch (t : Fin cfg0.N) : t.val < 32 := lt_of_lt_of_eq t.isLt (N_0 : cfg0.N = 32)

/-- Point t's block of objects is batch element t's objects. -/
theorem blk0 (c : Dev nD) (t : Fin cfg0.N) (p : Fin 64) (k : Fin 26) :
    (iblk m c 0 t : FVec Ideal S1x64x26 .bf16) (ix3 (0 : Fin 1) p k)
      = (m ((c : Thread nD τ).loc main_arg0) : FVec Ideal S32x64x26 .f32) (ix3 (⟨t.val, lt_batch t⟩ : Fin 32) p k) := by
  have hi := idx_batch t
  show V m c main_v0 (((cfg0.win 0).blk t).view.emb (ix3 (0 : Fin 1) p k)) = _
  rw [V_main_v0 m c]
  refine congrArg _ (funext fun a => Fin.ext ?_)
  match a with
  | ⟨0, _⟩ => show win0_0.index t (0 : Fin 3) * 1 + 1 * 0 = t.val; omega
  | ⟨1, _⟩ => show win0_0.index t (1 : Fin 3) * 64 + 1 * p.val = p.val; omega
  | ⟨2, _⟩ => show win0_0.index t (2 : Fin 3) * 26 + 1 * k.val = k.val; omega

/-- Point t's block of the questions is batch element t's question. -/
theorem blk1 (c : Dev nD) (t : Fin cfg0.N) (k : Fin 256) :
    (iblk m c 1 t : FVec Ideal S1x1x256 .bf16) (ix3 (0 : Fin 1) (0 : Fin 1) k)
      = (m ((c : Thread nD τ).loc main_arg1) : FVec Ideal S32x256 .f32) (ix2 (⟨t.val, lt_batch t⟩ : Fin 32) k) := by
  have hi := idx_batch t
  show V m c main_v2 (((cfg0.win 1).blk t).view.emb (ix3 (0 : Fin 1) (0 : Fin 1) k)) = _
  rw [V_main_v2 m c]
  refine shapeCast_apply _ shapeCasts_S32x256_S32x1x256 _ _ ?_
  rw [Shape.rowMajor_val_three, Shape.rowMajor_val_two]
  show t.val * 256 + k.val = ((win0_1.index t (0 : Fin 3) * 1 + 1 * 0) * 1 + (win0_1.index t (1 : Fin 3) * 1 + 1 * 0)) * 256 + (win0_1.index t (2 : Fin 3) * 256 + 1 * k.val)
  omega

theorem blk2 (c : Dev nD) (t : Fin cfg0.N) : (iblk m c 2 t : FVec Ideal S512x52 .bf16) = m ((c : Thread nD τ).loc main_arg2) := by
  have hi := idx_whole2 t
  funext y
  show V m c main_v3 (((cfg0.win 2).blk t).view.emb y) = _
  rw [V_main_v3]
  refine congrArg _ (funext fun a => Fin.ext ?_)
  match a with
    | ⟨0, _⟩ => show win0_2.index t (0 : Fin 2) * 512 + 1 * (y 0).val = (y 0).val; omega
    | ⟨1, _⟩ => show win0_2.index t (1 : Fin 2) * 52 + 1 * (y 1).val = (y 1).val; omega

theorem blk3 (c : Dev nD) (t : Fin cfg0.N) : (iblk m c 3 t : FVec Ideal S512 .f32) = m ((c : Thread nD τ).loc main_arg3) := by
  have hi := idx_whole1 t
  funext y
  show V m c main_arg3 (((cfg0.win 3).blk t).view.emb y) = _
  rw [V_main_arg3]
  refine congrArg _ (funext fun a => Fin.ext ?_)
  match a with
    | ⟨0, _⟩ => show win0_3.index t (0 : Fin 1) * 512 + 1 * (y 0).val = (y 0).val; omega

theorem blk4 (c : Dev nD) (t : Fin cfg0.N) : (iblk m c 4 t : FVec Ideal S512x512 .bf16) = m ((c : Thread nD τ).loc main_arg4) := by
  have hi := idx_whole2 t
  funext y
  show V m c main_v4 (((cfg0.win 4).blk t).view.emb y) = _
  rw [V_main_v4]
  refine congrArg _ (funext fun a => Fin.ext ?_)
  match a with
    | ⟨0, _⟩ => show win0_4.index t (0 : Fin 2) * 512 + 1 * (y 0).val = (y 0).val; omega
    | ⟨1, _⟩ => show win0_4.index t (1 : Fin 2) * 512 + 1 * (y 1).val = (y 1).val; omega

theorem blk5 (c : Dev nD) (t : Fin cfg0.N) : (iblk m c 5 t : FVec Ideal S512 .f32) = m ((c : Thread nD τ).loc main_arg5) := by
  have hi := idx_whole1 t
  funext y
  show V m c main_arg5 (((cfg0.win 5).blk t).view.emb y) = _
  rw [V_main_arg5]
  refine congrArg _ (funext fun a => Fin.ext ?_)
  match a with
    | ⟨0, _⟩ => show win0_5.index t (0 : Fin 1) * 512 + 1 * (y 0).val = (y 0).val; omega

theorem blk6 (c : Dev nD) (t : Fin cfg0.N) : (iblk m c 6 t : FVec Ideal S512x512 .bf16) = m ((c : Thread nD τ).loc main_arg6) := by
  have hi := idx_whole2 t
  funext y
  show V m c main_v5 (((cfg0.win 6).blk t).view.emb y) = _
  rw [V_main_v5]
  refine congrArg _ (funext fun a => Fin.ext ?_)
  match a with
    | ⟨0, _⟩ => show win0_6.index t (0 : Fin 2) * 512 + 1 * (y 0).val = (y 0).val; omega
    | ⟨1, _⟩ => show win0_6.index t (1 : Fin 2) * 512 + 1 * (y 1).val = (y 1).val; omega

theorem blk7 (c : Dev nD) (t : Fin cfg0.N) : (iblk m c 7 t : FVec Ideal S512 .f32) = m ((c : Thread nD τ).loc main_arg7) := by
  have hi := idx_whole1 t
  funext y
  show V m c main_arg7 (((cfg0.win 7).blk t).view.emb y) = _
  rw [V_main_arg7]
  refine congrArg _ (funext fun a => Fin.ext ?_)
  match a with
    | ⟨0, _⟩ => show win0_7.index t (0 : Fin 1) * 512 + 1 * (y 0).val = (y 0).val; omega

theorem blk8 (c : Dev nD) (t : Fin cfg0.N) : (iblk m c 8 t : FVec Ideal S512x512 .bf16) = m ((c : Thread nD τ).loc main_arg8) := by
  have hi := idx_whole2 t
  funext y
  show V m c main_v6 (((cfg0.win 8).blk t).view.emb y) = _
  rw [V_main_v6]
  refine congrArg _ (funext fun a => Fin.ext ?_)
  match a with
    | ⟨0, _⟩ => show win0_8.index t (0 : Fin 2) * 512 + 1 * (y 0).val = (y 0).val; omega
    | ⟨1, _⟩ => show win0_8.index t (1 : Fin 2) * 512 + 1 * (y 1).val = (y 1).val; omega

theorem blk9 (c : Dev nD) (t : Fin cfg0.N) : (iblk m c 9 t : FVec Ideal S512 .f32) = m ((c : Thread nD τ).loc main_arg9) := by
  have hi := idx_whole1 t
  funext y
  show V m c main_arg9 (((cfg0.win 9).blk t).view.emb y) = _
  rw [V_main_arg9]
  refine congrArg _ (funext fun a => Fin.ext ?_)
  match a with
    | ⟨0, _⟩ => show win0_9.index t (0 : Fin 1) * 512 + 1 * (y 0).val = (y 0).val; omega

theorem blk10 (c : Dev nD) (t : Fin cfg0.N) : (iblk m c 10 t : FVec Ideal S512x768 .bf16) = m ((c : Thread nD τ).loc main_arg10) := by
  have hi := idx_whole2 t
  funext y
  show V m c main_v7 (((cfg0.win 10).blk t).view.emb y) = _
  rw [V_main_v7]
  refine congrArg _ (funext fun a => Fin.ext ?_)
  match a with
    | ⟨0, _⟩ => show win0_10.index t (0 : Fin 2) * 512 + 1 * (y 0).val = (y 0).val; omega
    | ⟨1, _⟩ => show win0_10.index t (1 : Fin 2) * 768 + 1 * (y 1).val = (y 1).val; omega

theorem blk11 (c : Dev nD) (t : Fin cfg0.N) : (iblk m c 11 t : FVec Ideal S512 .f32) = m ((c : Thread nD τ).loc main_arg11) := by
  have hi := idx_whole1 t
  funext y
  show V m c main_arg11 (((cfg0.win 11).blk t).view.emb y) = _
  rw [V_main_arg11]
  refine congrArg _ (funext fun a => Fin.ext ?_)
  match a with
    | ⟨0, _⟩ => show win0_11.index t (0 : Fin 1) * 512 + 1 * (y 0).val = (y 0).val; omega

theorem blk12 (c : Dev nD) (t : Fin cfg0.N) : (iblk m c 12 t : FVec Ideal S512x512 .bf16) = m ((c : Thread nD τ).loc main_arg12) := by
  have hi := idx_whole2 t
  funext y
  show V m c main_v8 (((cfg0.win 12).blk t).view.emb y) = _
  rw [V_main_v8]
  refine congrArg _ (funext fun a => Fin.ext ?_)
  match a with
    | ⟨0, _⟩ => show win0_12.index t (0 : Fin 2) * 512 + 1 * (y 0).val = (y 0).val; omega
    | ⟨1, _⟩ => show win0_12.index t (1 : Fin 2) * 512 + 1 * (y 1).val = (y 1).val; omega

theorem blk13 (c : Dev nD) (t : Fin cfg0.N) : (iblk m c 13 t : FVec Ideal S512 .f32) = m ((c : Thread nD τ).loc main_arg13) := by
  have hi := idx_whole1 t
  funext y
  show V m c main_arg13 (((cfg0.win 13).blk t).view.emb y) = _
  rw [V_main_arg13]
  refine congrArg _ (funext fun a => Fin.ext ?_)
  match a with
    | ⟨0, _⟩ => show win0_13.index t (0 : Fin 1) * 512 + 1 * (y 0).val = (y 0).val; omega

theorem blk14 (c : Dev nD) (t : Fin cfg0.N) : (iblk m c 14 t : FVec Ideal S28x512 .bf16) = m ((c : Thread nD τ).loc main_arg14) := by
  have hi := idx_whole2 t
  funext y
  show V m c main_v9 (((cfg0.win 14).blk t).view.emb y) = _
  rw [V_main_v9]
  refine congrArg _ (funext fun a => Fin.ext ?_)
  match a with
    | ⟨0, _⟩ => show win0_14.index t (0 : Fin 2) * 28 + 1 * (y 0).val = (y 0).val; omega
    | ⟨1, _⟩ => show win0_14.index t (1 : Fin 2) * 512 + 1 * (y 1).val = (y 1).val; omega

theorem blk15 (c : Dev nD) (t : Fin cfg0.N) : (iblk m c 15 t : FVec Ideal S28 .f32) = m ((c : Thread nD τ).loc main_arg15) := by
  have hi := idx_whole1 t
  funext y
  show V m c main_arg15 (((cfg0.win 15).blk t).view.emb y) = _
  rw [V_main_arg15]
  refine congrArg _ (funext fun a => Fin.ext ?_)
  match a with
    | ⟨0, _⟩ => show win0_15.index t (0 : Fin 1) * 28 + 1 * (y 0).val = (y 0).val; omega

/-! ## What each point writes back, and the result array after the run -/

/-- The [32, 1, 28] array the region writes: the network's result with a unit middle axis. -/
def regionOut (c : Dev nD) : FVec Ideal S32x1x28 .f32 := fun i => out (argsOf m c) (i 0) (i 2)

/-- What the body stores at point t, entry by entry: the network's result for batch element t. -/
theorem stored_at (c : Dev nD) (t : Fin cfg0.N) (y : S1x1x28.Idx) :
    out0_16 (F := Ideal) (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t) (iblk m c 15 t) y
      = out (argsOf m c) (⟨t.val, lt_batch t⟩ : Fin 32) (y 2) := by
  have hy : y = ix3 (0 : Fin 1) (0 : Fin 1) (y 2) := funext fun a => Fin.ext (by
    match a with
    | ⟨0, _⟩ => show (y 0).val = 0; have : (y 0).val < 1 := (y 0).isLt; omega
    | ⟨1, _⟩ => show (y 1).val = 0; have : (y 1).val < 1 := (y 1).isLt; omega
    | ⟨2, _⟩ => rfl)
  rw [hy]
  exact stored_eq (argsOf m c) (⟨t.val, lt_batch t⟩ : Fin 32) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) (iblk m c 14 t) (iblk m c 15 t)
    (fun p k => blk0 m c t p k) (fun k => blk1 m c t k)
    (blk2 m c t) (blk3 m c t) (blk4 m c t) (blk5 m c t) (blk6 m c t) (blk7 m c t) (blk8 m c t) (blk9 m c t) (blk10 m c t) (blk11 m c t)
    (blk12 m c t) (blk13 m c t) (blk14 m c t) (blk15 m c t) (y 2)

/-- WHAT POINT t WRITES BACK is block t of the region's result array. -/
theorem flushed_eq (c : Dev nD) (t : Fin cfg0.N) :
    (dats m 0 c).flushed 16 t = ((cfg0.win 16).blk t).view.read (Elt Ideal) (regionOut m c) := by
  have hi := idx_batch t
  show (cfg0.win 16).cut (grid0.coords t) ((dats m 0 c).after 16 t) = _
  rw [after0_16]
  funext y
  show out0_16 (F := Ideal) (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t) (iblk m c 15 t) y
      = regionOut m c (((cfg0.win 16).blk t).view.emb y)
  rw [stored_at m c t y]
  unfold regionOut
  have e0 : (((cfg0.win 16).blk t).view.emb y) 0 = (⟨t.val, lt_batch t⟩ : Fin 32) :=
    Fin.ext (by show win0_16.index t (0 : Fin 3) * 1 + 1 * (y 0).val = t.val; have : (y 0).val < 1 := (y 0).isLt; omega)
  have e2 : (((cfg0.win 16).blk t).view.emb y) 2 = y 2 :=
    Fin.ext (by show win0_16.index t (2 : Fin 3) * 28 + 1 * (y 2).val = (y 2).val; omega)
  rw [e0, e2]

/-- An index of the result array is in point t's block iff each coordinate is in the block's range on its axis. -/
theorem mem_blk (t : Fin cfg0.N) (i : S32x1x28.Idx) :
    i ∈ ((cfg0.win 16).blk t).view.set ↔ ∀ a : Fin 3, win0_16.index t a * S1x1x28.size a ≤ (i a).val ∧ (i a).val < win0_16.index t a * S1x1x28.size a + S1x1x28.size a := by
  show i ∈ ((View.whole main_v10).slice (win0_16.rect t)).set ↔ _
  rw [View.set_slice_whole, Rect.mem_set_unit]
  exact Iff.rfl

/-- THE REGION'S RESULT ARRAY after the run: the 32 blocks cover it. -/
theorem final (c : Dev nD) : (dats m 0 c).arrAt 16 cfg0.N = regionOut m c :=
  (dats m 0 c).arrAt_eq_of_cover 16 (regionOut m c) (fun t _ => flushed_eq m c t) fun i => by
    have hN : cfg0.N = 32 := N_0
    have hi0 : (i 0).val < 32 := (i 0).isLt
    have hi1 : (i 1).val < 1 := (i 1).isLt
    have hi2 : (i 2).val < 28 := (i 2).isLt
    obtain ⟨t, ht⟩ : ∃ t : Fin cfg0.N, t.val = (i 0).val := ⟨⟨(i 0).val, lt_of_lt_of_eq hi0 hN.symm⟩, rfl⟩
    refine ⟨t, flush0_16 t, ?_⟩
    rw [mem_blk]
    have hi := idx_batch t
    intro a
    match a with
    | ⟨0, _⟩ => show win0_16.index t (0 : Fin 3) * 1 ≤ (i 0).val ∧ (i 0).val < win0_16.index t (0 : Fin 3) * 1 + 1; omega
    | ⟨1, _⟩ => show win0_16.index t (1 : Fin 3) * 1 ≤ (i 1).val ∧ (i 1).val < win0_16.index t (1 : Fin 3) * 1 + 1; omega
    | ⟨2, _⟩ => show win0_16.index t (2 : Fin 3) * 28 ≤ (i 2).val ∧ (i 2).val < win0_16.index t (2 : Fin 3) * 28 + 28; omega

/-! ## The host's reshape after the region, and the run -/

/-- The returned array: the region's result with its unit axis dropped is the network's result. -/
theorem returned (c : Dev nD) :
    Pipeline.afterTail₀ cfgs (dats m) 0 (V0 m) [hostOps1] c main_v11 = result (argsOf m c) := by
  unfold Pipeline.afterTail₀
  show StableHlo.after hostOps1 _ (Proc.devRef .tc main_v11) = _
  after_results
  rw [(Pipeline.withArrays_arr spec0 launch0.win.arr_inj c _ _ 16).trans (final m c)]
  funext i
  refine (shapeCast_apply (regionOut m c) shapeCasts_S32x1x28_S32x28 i (ix3 (i 0) (0 : Fin 1) (i 1)) ?_).trans rfl
  rw [Shape.rowMajor_val_three, Shape.rowMajor_val_two]
  show ((i 0).val * 1 + 0) * 28 + (i 1).val = (i 0).val * 28 + (i 1).val
  omega

/-- The arguments end as launched: an argument some window stages is its window's array after the run, which for an input
    window is the array as the region found it; any other argument is written by no host operation after the region. -/
theorem kept (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15) :=
  ⟨((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).1 3).trans (((dats m 0 c).arrAt_in 3 rfl _).trans ((A_eq m c 3).trans (V_main_arg3 m c))),
   ((h c).2 main_arg4 (Pipeline.mem_restRefs_of main_arg4 (by decide) (by decide))).trans (W_main_arg4 m (dats m) c),
   ((h c).1 5).trans (((dats m 0 c).arrAt_in 5 rfl _).trans ((A_eq m c 5).trans (V_main_arg5 m c))),
   ((h c).2 main_arg6 (Pipeline.mem_restRefs_of main_arg6 (by decide) (by decide))).trans (W_main_arg6 m (dats m) c),
   ((h c).1 7).trans (((dats m 0 c).arrAt_in 7 rfl _).trans ((A_eq m c 7).trans (V_main_arg7 m c))),
   ((h c).2 main_arg8 (Pipeline.mem_restRefs_of main_arg8 (by decide) (by decide))).trans (W_main_arg8 m (dats m) c),
   ((h c).1 9).trans (((dats m 0 c).arrAt_in 9 rfl _).trans ((A_eq m c 9).trans (V_main_arg9 m c))),
   ((h c).2 main_arg10 (Pipeline.mem_restRefs_of main_arg10 (by decide) (by decide))).trans (W_main_arg10 m (dats m) c),
   ((h c).1 11).trans (((dats m 0 c).arrAt_in 11 rfl _).trans ((A_eq m c 11).trans (V_main_arg11 m c))),
   ((h c).2 main_arg12 (Pipeline.mem_restRefs_of main_arg12 (by decide) (by decide))).trans (W_main_arg12 m (dats m) c),
   ((h c).1 13).trans (((dats m 0 c).arrAt_in 13 rfl _).trans ((A_eq m c 13).trans (V_main_arg13 m c))),
   ((h c).2 main_arg14 (Pipeline.mem_restRefs_of main_arg14 (by decide) (by decide))).trans (W_main_arg14 m (dats m) c),
   ((h c).1 15).trans (((dats m 0 c).arrAt_in 15 rfl _).trans ((A_eq m c 15).trans (V_main_arg15 m c)))⟩

/-- THE RUN, READ: every weakly fair execution of the kernel's program ends with the returned array at the network's
    result of the arguments as launched, and the arguments unchanged. -/
theorem run : θ_run defs (onTc (τ := τ) (main (F := Ideal))) ⟨m, fun _ => 0, ρ⟩ fun r => ∀ c : Dev nD,
      r.2.mem ((c : Thread nD τ).loc main_v11) = result (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c =>
      ⟨((h c).2 main_v11 (Pipeline.mem_restRefs_of main_v11 (by decide) (by decide))).trans (returned m c), kept m r h c⟩)
    (run_main m ρ)

end Cert.RelNet.Ker

end
-- ==== Proof.Reference.lean ====
/-
  The reference program computes the relational network.

  Stage by stage, each array the reference writes is read at explicit coordinates and identified with the
  corresponding function of the network: the pair features, the four layers on every pair, the sum over the pairs,
  the sums joined with the question, the three layers after the sum, and the log-softmax of the scores.  The
  reference keeps (batch, pair) flattened to one row index, row = 4096 * batch + pair, with pair = 64 p + q.
-/
import proofs.«155540_j6966436954182_1_alg».proof.Proof.RelNet
import proofs.«155540_j6966436954182_1_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce

noncomputable section

namespace Cert.RelNet.Ref

open Cert.ReferenceIdeal Cert.ReferenceIdeal.Gen Cert.ReferenceIdeal.Read Idealize.ShloMosaic Idealize.ShloMosaic.ValueIdx
open Cert.RelNet

/-! ## Coordinates -/

/-- The row of the flattened (batch, pair) axis. -/
def row (b : Fin 32) (r : Fin 4096) : Fin 131072 :=
  ⟨b.val * 4096 + r.val, by have := b.isLt; have := r.isLt; omega⟩

theorem row_val (b : Fin 32) (r : Fin 4096) : (row b r).val = b.val * 4096 + r.val := rfl

/-! ## A dense layer followed by the positive part, as arithmetic -/

/-- A sum of products plus a bias, bounded below by a zero: one output of a layer followed by the positive part. -/
theorem dense_pos {K O : Nat} (h : Fin K → EReal) (W : Arr2 O K) (c : Arr1 O) (o : Fin O)
    (l r : Fin K → EReal) (bias z : EReal)
    (hl : ∀ k, l k = h k) (hr : ∀ k, r k = W (ix2 o k)) (hb : bias = c (ix1 o)) (hz : z = 0) :
    max ((∑ k : Fin K, l k * r k) + bias) z = pos (affine h W c o) := by
  unfold pos affine
  rw [hb, hz]
  exact congrArg (fun s => max (s + c (ix1 o)) 0) (Finset.sum_congr rfl fun k _ => by rw [hl k, hr k])

/-- A sum of products plus a bias: one output of a layer. -/
theorem dense {K O : Nat} (h : Fin K → EReal) (W : Arr2 O K) (c : Arr1 O) (o : Fin O)
    (l r : Fin K → EReal) (bias : EReal)
    (hl : ∀ k, l k = h k) (hr : ∀ k, r k = W (ix2 o k)) (hb : bias = c (ix1 o)) :
    (∑ k : Fin K, l k * r k) + bias = affine h W c o := by
  unfold affine
  rw [hb]
  exact congrArg (fun s => s + c (ix1 o)) (Finset.sum_congr rfl fun k _ => by rw [hl k, hr k])

/-! ## The pair features -/

/-- The joined features below 26 are the first piece's: the object numbered by the third coordinate. -/
theorem v4_left (x0 : (⟨S32x64x26, .f32⟩ : BufTy).Contents (Elt Ideal)) (b : Fin 32) (p q : Fin 64) (k : Fin 52)
    (h : k.val < 26) :
    val_main_v4 (F := Ideal) x0 (ix4 b p q k) = x0 (ix3 b q ⟨k.val, h⟩) := by
  unfold val_main_v4
  refine (concatenate_pair_apply_left 3 _ _ concatenates_S32x64x64x26_S32x64x64x26_S32x64x64x52_d3 (ix4 b p q k) rfl
    (ix4 b p q ⟨k.val, h⟩) (fun a => ?_)).trans ?_
  · match a with
    | ⟨0, _⟩ => rfl
    | ⟨1, _⟩ => rfl
    | ⟨2, _⟩ => rfl
    | ⟨3, _⟩ => rfl
  · rw [val_main_v1_apply, val_main_v0_apply]
    exact congrArg x0 (funext fun a => Fin.ext (by
      match a with
      | ⟨0, _⟩ => rfl
      | ⟨1, _⟩ => rfl
      | ⟨2, _⟩ => rfl))

/-- The joined features from 26 on are the second piece's: the object numbered by the second coordinate. -/
theorem v4_right (x0 : (⟨S32x64x26, .f32⟩ : BufTy).Contents (Elt Ideal)) (b : Fin 32) (p q : Fin 64) (k : Fin 52)
    (h : 26 ≤ k.val) :
    val_main_v4 (F := Ideal) x0 (ix4 b p q k) = x0 (ix3 b p ⟨k.val - 26, by have := k.isLt; omega⟩) := by
  unfold val_main_v4
  refine (concatenate_pair_apply_right 3 _ _ concatenates_S32x64x64x26_S32x64x64x26_S32x64x64x52_d3 (ix4 b p q k) rfl rfl
    (ix4 b p q ⟨k.val - 26, by have := k.isLt; omega⟩) (fun a ha => ?_) ?_).trans ?_
  · match a with
    | ⟨0, _⟩ => rfl
    | ⟨1, _⟩ => rfl
    | ⟨2, _⟩ => rfl
    | ⟨3, _⟩ => exact absurd rfl ha
  · show (k.val - 26) + 26 = k.val
    omega
  · rw [val_main_v3_apply, val_main_v2_apply]
    exact congrArg x0 (funext fun a => Fin.ext (by
      match a with
      | ⟨0, _⟩ => rfl
      | ⟨1, _⟩ => rfl
      | ⟨2, _⟩ => rfl))

/-- Row 4096 b + r, column k of the flattened array is entry (b, r / 64, r % 64, k) of the joined one. -/
theorem idx_v5 (b : Fin 32) (r : Fin 4096) (k : Fin 52) :
    idx_main_v5 (ix2 (row b r) k)
      = ix4 b ⟨r.val / 64, by have := r.isLt; omega⟩ ⟨r.val % 64, Nat.mod_lt _ (by decide)⟩ k :=
  funext fun a => Fin.ext (by
    have hb := b.isLt
    have hr := r.isLt
    have hk := k.isLt
    match a with
    | ⟨0, _⟩ => show ((b.val * 4096 + r.val) * 52 + k.val) / 212992 = b.val; omega
    | ⟨1, _⟩ => show ((b.val * 4096 + r.val) * 52 + k.val) / 3328 % 64 = r.val / 64; omega
    | ⟨2, _⟩ => show ((b.val * 4096 + r.val) * 52 + k.val) / 52 % 64 = r.val % 64; omega
    | ⟨3, _⟩ => show ((b.val * 4096 + r.val) * 52 + k.val) % 52 = k.val; omega)

/-- The flattened array of pair features. -/
theorem v5_eq (A : Args) (b : Fin 32) (r : Fin 4096) (k : Fin 52) :
    val_main_v5 (F := Ideal) A.x (ix2 (row b r) k) = pair A b r k := by
  rw [val_main_v5_apply, idx_v5]
  unfold pair
  split
  · next h => exact v4_left A.x b _ _ k h
  · next h => exact v4_right A.x b _ _ k (Nat.le_of_not_lt h)

/-! ## The four layers on every pair -/

/-- The first layer. -/
theorem v11_eq (A : Args) (b : Fin 32) (r : Fin 4096) (o : Fin 512) :
    val_main_v11 (F := Ideal) A.x A.W0 A.b0 (ix2 (row b r) o) = g0 A b r o := by
  rw [val_main_v11_apply, val_main_v10_apply, val_main_v7_apply, val_main_v9_apply, val_main_v8_apply,
    val_main_call0_v0_apply, val_main_call0_cst_apply]
  unfold g0
  refine dense_pos (pair A b r) A.W0 A.b0 o _ _ _ _ (fun k => ?_) (fun k => ?_) ?_ ?_
  · exact (congrArg (val_main_v5 (F := Ideal) A.x) (funext fun a => Fin.ext (by
      match a with
      | ⟨0, _⟩ => rfl
      | ⟨1, _⟩ => rfl))).trans (v5_eq A b r k)
  · rw [val_main_v6_apply]
    exact congrArg A.W0 (funext fun a => Fin.ext (by
      match a with
      | ⟨0, _⟩ => rfl
      | ⟨1, _⟩ => rfl))
  · exact congrArg A.b0 (funext fun a => Fin.ext (by
      match a with
      | ⟨0, _⟩ => rfl))
  · exact Ideal.ofBits_zero_f32

/-- The second layer. -/
theorem v17_eq (A : Args) (b : Fin 32) (r : Fin 4096) (o : Fin 512) :
    val_main_v17 (F := Ideal) A.x A.W0 A.b0 A.W1 A.b1 (ix2 (row b r) o) = g1 A b r o := by
  rw [val_main_v17_apply, val_main_v16_apply, val_main_v13_apply, val_main_v15_apply, val_main_v14_apply,
    val_main_call1_v0_apply, val_main_call1_cst_apply]
  unfold g1
  refine dense_pos (g0 A b r) A.W1 A.b1 o _ _ _ _ (fun k => ?_) (fun k => ?_) ?_ ?_
  · exact (congrArg (val_main_v11 (F := Ideal) A.x A.W0 A.b0) (funext fun a => Fin.ext (by
      match a with
      | ⟨0, _⟩ => rfl
      | ⟨1, _⟩ => rfl))).trans (v11_eq A b r k)
  · rw [val_main_v12_apply]
    exact congrArg A.W1 (funext fun a => Fin.ext (by
      match a with
      | ⟨0, _⟩ => rfl
      | ⟨1, _⟩ => rfl))
  · exact congrArg A.b1 (funext fun a => Fin.ext (by
      match a with
      | ⟨0, _⟩ => rfl))
  · exact Ideal.ofBits_zero_f32

/-- The third layer. -/
theorem v23_eq (A : Args) (b : Fin 32) (r : Fin 4096) (o : Fin 512) :
    val_main_v23 (F := Ideal) A.x A.W0 A.b0 A.W1 A.b1 A.W2 A.b2 (ix2 (row b r) o) = g2 A b r o := by
  rw [val_main_v23_apply, val_main_v22_apply, val_main_v19_apply, val_main_v21_apply, val_main_v20_apply,
    val_main_call2_v0_apply, val_main_call2_cst_apply]
  unfold g2
  refine dense_pos (g1 A b r) A.W2 A.b2 o _ _ _ _ (fun k => ?_) (fun k => ?_) ?_ ?_
  · exact (congrArg (val_main_v17 (F := Ideal) A.x A.W0 A.b0 A.W1 A.b1) (funext fun a => Fin.ext (by
      match a with
      | ⟨0, _⟩ => rfl
      | ⟨1, _⟩ => rfl))).trans (v17_eq A b r k)
  · rw [val_main_v18_apply]
    exact congrArg A.W2 (funext fun a => Fin.ext (by
      match a with
      | ⟨0, _⟩ => rfl
      | ⟨1, _⟩ => rfl))
  · exact congrArg A.b2 (funext fun a => Fin.ext (by
      match a with
      | ⟨0, _⟩ => rfl))
  · exact Ideal.ofBits_zero_f32

/-- The fourth layer. -/
theorem v29_eq (A : Args) (b : Fin 32) (r : Fin 4096) (o : Fin 512) :
    val_main_v29 (F := Ideal) A.x A.W0 A.b0 A.W1 A.b1 A.W2 A.b2 A.W3 A.b3 (ix2 (row b r) o) = g3 A b r o := by
  rw [val_main_v29_apply, val_main_v28_apply, val_main_v25_apply, val_main_v27_apply, val_main_v26_apply,
    val_main_call3_v0_apply, val_main_call3_cst_apply]
  unfold g3
  refine dense_pos (g2 A b r) A.W3 A.b3 o _ _ _ _ (fun k => ?_) (fun k => ?_) ?_ ?_
  · exact (congrArg (val_main_v23 (F := Ideal) A.x A.W0 A.b0 A.W1 A.b1 A.W2 A.b2) (funext fun a => Fin.ext (by
      match a with
      | ⟨0, _⟩ => rfl
      | ⟨1, _⟩ => rfl))).trans (v23_eq A b r k)
  · rw [val_main_v24_apply]
    exact congrArg A.W3 (funext fun a => Fin.ext (by
      match a with
      | ⟨0, _⟩ => rfl
      | ⟨1, _⟩ => rfl))
  · exact congrArg A.b3 (funext fun a => Fin.ext (by
      match a with
      | ⟨0, _⟩ => rfl))
  · exact Ideal.ofBits_zero_f32

/-! ## The sum over the pairs, joined with the question -/

/-- Entry (b, r, o) of the array regrouped by batch element is row 4096 b + r, column o of the flattened one. -/
theorem idx_v30 (b : Fin 32) (r : Fin 4096) (o : Fin 512) :
    idx_main_v30 (idx_main_v31 (ix2 b o) r) = ix2 (row b r) o :=
  funext fun a => Fin.ext (by
    have hb := b.isLt
    have hr := r.isLt
    have ho := o.isLt
    match a with
    | ⟨0, _⟩ => show ((b.val * 4096 + r.val) * 512 + o.val) / 512 = b.val * 4096 + r.val; omega
    | ⟨1, _⟩ => show ((b.val * 4096 + r.val) * 512 + o.val) % 512 = o.val; omega)

/-- The sum over the pairs, taken from zero. -/
theorem v31_eq (A : Args) (b : Fin 32) (o : Fin 512) :
    val_main_v31 (F := Ideal) A.x A.W0 A.b0 A.W1 A.b1 A.W2 A.b2 A.W3 A.b3 (ix2 b o) = agg A b o := by
  rw [val_main_v31_apply, val_main_cst_apply, Ideal.ofBits_def, Ideal.ofBits_zero_f32, zero_add]
  unfold agg
  refine Finset.sum_congr rfl fun r _ => ?_
  rw [val_main_v30_apply, idx_v30]
  exact v29_eq A b r o

/-- The sums joined with the question's features. -/
theorem v32_eq (A : Args) (b : Fin 32) (k : Fin 768) :
    val_main_v32 (F := Ideal) A.x A.q A.W0 A.b0 A.W1 A.b1 A.W2 A.b2 A.W3 A.b3 (ix2 b k) = joined A b k := by
  unfold val_main_v32 joined
  split
  · next h =>
    refine (concatenate_pair_apply_left 1 _ _ concatenates_S32x512_S32x256_S32x768_d1 (ix2 b k) rfl
      (ix2 b ⟨k.val, h⟩) (fun a => ?_)).trans (v31_eq A b ⟨k.val, h⟩)
    match a with
    | ⟨0, _⟩ => rfl
    | ⟨1, _⟩ => rfl
  · next h =>
    refine concatenate_pair_apply_right 1 _ _ concatenates_S32x512_S32x256_S32x768_d1 (ix2 b k) rfl rfl
      (ix2 b ⟨k.val - 512, by have := k.isLt; omega⟩) (fun a ha => ?_) ?_
    · match a with
      | ⟨0, _⟩ => rfl
      | ⟨1, _⟩ => exact absurd rfl ha
    · show (k.val - 512) + 512 = k.val
      omega

/-! ## The layers after the sum -/

/-- The first layer after the sum. -/
theorem v38_eq (A : Args) (b : Fin 32) (o : Fin 512) :
    val_main_v38 (F := Ideal) A.x A.q A.W0 A.b0 A.W1 A.b1 A.W2 A.b2 A.W3 A.b3 A.W4 A.b4 (ix2 b o) = f0 A b o := by
  rw [val_main_v38_apply, val_main_v37_apply, val_main_v34_apply, val_main_v36_apply, val_main_v35_apply,
    val_main_call4_v0_apply, val_main_call4_cst_apply]
  unfold f0
  refine dense_pos (joined A b) A.W4 A.b4 o _ _ _ _ (fun k => ?_) (fun k => ?_) ?_ ?_
  · exact (congrArg (val_main_v32 (F := Ideal) A.x A.q A.W0 A.b0 A.W1 A.b1 A.W2 A.b2 A.W3 A.b3) (funext fun a => Fin.ext (by
      match a with
      | ⟨0, _⟩ => rfl
      | ⟨1, _⟩ => rfl))).trans (v32_eq A b k)
  · rw [val_main_v33_apply]
    exact congrArg A.W4 (funext fun a => Fin.ext (by
      match a with
      | ⟨0, _⟩ => rfl
      | ⟨1, _⟩ => rfl))
  · exact congrArg A.b4 (funext fun a => Fin.ext (by
      match a with
      | ⟨0, _⟩ => rfl))
  · exact Ideal.ofBits_zero_f32

/-- The second layer after the sum. -/
theorem v44_eq (A : Args) (b : Fin 32) (o : Fin 512) :
    val_main_v44 (F := Ideal) A.x A.q A.W0 A.b0 A.W1 A.b1 A.W2 A.b2 A.W3 A.b3 A.W4 A.b4 A.W5 A.b5 (ix2 b o) = f1 A b o := by
  rw [val_main_v44_apply, val_main_v43_apply, val_main_v40_apply, val_main_v42_apply, val_main_v41_apply,
    val_main_call5_v0_apply, val_main_call5_cst_apply]
  unfold f1
  refine dense_pos (f0 A b) A.W5 A.b5 o _ _ _ _ (fun k => ?_) (fun k => ?_) ?_ ?_
  · exact (congrArg (val_main_v38 (F := Ideal) A.x A.q A.W0 A.b0 A.W1 A.b1 A.W2 A.b2 A.W3 A.b3 A.W4 A.b4) (funext fun a => Fin.ext (by
      match a with
      | ⟨0, _⟩ => rfl
      | ⟨1, _⟩ => rfl))).trans (v38_eq A b k)
  · rw [val_main_v39_apply]
    exact congrArg A.W5 (funext fun a => Fin.ext (by
      match a with
      | ⟨0, _⟩ => rfl
      | ⟨1, _⟩ => rfl))
  · exact congrArg A.b5 (funext fun a => Fin.ext (by
      match a with
      | ⟨0, _⟩ => rfl))
  · exact Ideal.ofBits_zero_f32

/-- The scores: the last layer, with no positive part. -/
theorem v49_eq (A : Args) (b : Fin 32) (j : Fin 28) :
    val_main_v49 (F := Ideal) A.x A.q A.W0 A.b0 A.W1 A.b1 A.W2 A.b2 A.W3 A.b3 A.W4 A.b4 A.W5 A.b5 A.W6 A.b6 (ix2 b j) = score A b j := by
  rw [val_main_v49_apply, val_main_v46_apply, val_main_v48_apply, val_main_v47_apply]
  unfold score
  refine dense (f1 A b) A.W6 A.b6 j _ _ _ (fun k => ?_) (fun k => ?_) ?_
  · exact (congrArg (val_main_v44 (F := Ideal) A.x A.q A.W0 A.b0 A.W1 A.b1 A.W2 A.b2 A.W3 A.b3 A.W4 A.b4 A.W5 A.b5) (funext fun a => Fin.ext (by
      match a with
      | ⟨0, _⟩ => rfl
      | ⟨1, _⟩ => rfl))).trans (v44_eq A b k)
  · rw [val_main_v45_apply]
    exact congrArg A.W6 (funext fun a => Fin.ext (by
      match a with
      | ⟨0, _⟩ => rfl
      | ⟨1, _⟩ => rfl))
  · exact congrArg A.b6 (funext fun a => Fin.ext (by
      match a with
      | ⟨0, _⟩ => rfl))

/-! ## The log-softmax of the scores -/

/-- Dropping the second axis of a 32 by 28 array leaves the first. -/
theorem reduces_rows : S32x28.Reduces [1] S32 := by decide

/-- The row index b with column k put back is (b, k). -/
theorem lift_row (b : Fin 32) (k : Fin (S32x28.size 1)) :
    reduces_rows.lift (ix1 b) k = ix2 b (⟨k.val, k.isLt⟩ : Fin 28) := by
  funext c
  apply Fin.ext
  match c with
  | ⟨0, _⟩ => rfl
  | ⟨1, _⟩ => rfl

/-- The row's maximum taken from the bottom element: the fold of the maximum over the 28 scores. -/
theorem call6_v0_eq (A : Args) (b : Fin 32) :
    val_main_call6_v0 (F := Ideal) A.x A.q A.W0 A.b0 A.W1 A.b1 A.W2 A.b2 A.W3 A.b3 A.W4 A.b4 A.W5 A.b5 A.W6 A.b6 (ix1 b)
      = (Finset.univ : Finset (Fin 28)).fold max negInf (score A b) := by
  unfold val_main_call6_v0
  rw [Host.reduce_eq_fold_single FloatOps.maximumf _ _ reducesTo_S32x28_S32_d1 reduces_rows h_S_]
  have hf : (val_main_v49 (F := Ideal) A.x A.q A.W0 A.b0 A.W1 A.b1 A.W2 A.b2 A.W3 A.b3 A.W4 A.b4 A.W5 A.b5 A.W6 A.b6 ∘ reduces_rows.lift (ix1 b))
      = fun k : Fin 28 => score A b k :=
    funext fun k => (congrArg (val_main_v49 (F := Ideal) A.x A.q A.W0 A.b0 A.W1 A.b1 A.W2 A.b2 A.W3 A.b3 A.W4 A.b4 A.W5 A.b5 A.W6 A.b6) (lift_row b k)).trans
      (v49_eq A b ⟨k.val, k.isLt⟩)
  exact congrArg (fun f => Finset.fold max negInf f (Finset.univ : Finset (Fin 28))) hf

/-- The row's maximum, once more against the bottom element. -/
theorem call6_v2_eq (A : Args) (b : Fin 32) :
    val_main_call6_v2 (F := Ideal) A.x A.q A.W0 A.b0 A.W1 A.b1 A.W2 A.b2 A.W3 A.b3 A.W4 A.b4 A.W5 A.b5 A.W6 A.b6 (ix1 b) = top A b := by
  rw [val_main_call6_v2_apply, val_main_call6_v1_apply, val_main_call6_cst_0_apply, call6_v0_eq]
  rfl

/-- A score less its row's maximum. -/
theorem call6_v5_eq (A : Args) (b : Fin 32) (j : Fin 28) :
    val_main_call6_v5 (F := Ideal) A.x A.q A.W0 A.b0 A.W1 A.b1 A.W2 A.b2 A.W3 A.b3 A.W4 A.b4 A.W5 A.b5 A.W6 A.b6 (ix2 b j) = shifted A b j := by
  have e : idx_main_call6_v3 (idx_main_call6_v4 (ix2 b j)) = ix1 b := (funext fun a => Fin.ext (by
      match a with
      | ⟨0, _⟩ => rfl))
  rw [val_main_call6_v5_apply, val_main_call6_v4_apply, val_main_call6_v3_apply, e, call6_v2_eq, v49_eq]
  rfl

/-- The sum of the exponentials of a row's shifted scores, taken from zero. -/
theorem call6_v7_eq (A : Args) (b : Fin 32) :
    val_main_call6_v7 (F := Ideal) A.x A.q A.W0 A.b0 A.W1 A.b1 A.W2 A.b2 A.W3 A.b3 A.W4 A.b4 A.W5 A.b5 A.W6 A.b6 (ix1 b) = ∑ k : Fin 28, Ideal.exp (shifted A b k) := by
  rw [val_main_call6_v7_apply, val_main_call6_cst_1_apply, Ideal.ofBits_def, Ideal.ofBits_zero_f32, zero_add]
  refine Finset.sum_congr rfl fun k _ => ?_
  have e : idx_main_call6_v7 (ix1 b) k = ix2 b k := (funext fun a => Fin.ext (by
      match a with
      | ⟨0, _⟩ => rfl
      | ⟨1, _⟩ => rfl))
  rw [val_main_call6_v6_apply, Ideal.hostUnary_exp_def, e, call6_v5_eq]

/-- The result: a shifted score less the logarithm of the row's sum of exponentials. -/
theorem v50_eq (A : Args) (b : Fin 32) (j : Fin 28) :
    val_main_v50 (F := Ideal) A.x A.q A.W0 A.b0 A.W1 A.b1 A.W2 A.b2 A.W3 A.b3 A.W4 A.b4 A.W5 A.b5 A.W6 A.b6 (ix2 b j) = out A b j := by
  have e : idx_main_call6_v8 (idx_main_call6_v10 (ix2 b j)) = ix1 b := (funext fun a => Fin.ext (by
      match a with
      | ⟨0, _⟩ => rfl))
  rw [val_main_v50_apply, val_main_call6_v10_apply, val_main_call6_v9_apply, val_main_call6_v8_apply, e,
    call6_v7_eq, call6_v5_eq, Ideal.hostUnary_log_def]
  rfl

/-! ## The whole program -/

/-- The reference's result is the network's, for any sixteen arrays. -/
theorem result_args (A : Args) :
    val_main_v50 (F := Ideal) A.x A.q A.W0 A.b0 A.W1 A.b1 A.W2 A.b2 A.W3 A.b3 A.W4 A.b4 A.W5 A.b5 A.W6 A.b6 = result A := by
  funext i
  obtain ⟨b, j, rfl⟩ : ∃ (b : Fin 32) (j : Fin 28), i = ix2 b j := ⟨i 0, i 1, eq_ix2 i⟩
  exact v50_eq A b j

/-- The reference's result, as a function of its sixteen arguments in the program's order, is the network's. -/
theorem result_eq (x0 : (⟨S32x64x26, .f32⟩ : BufTy).Contents (Elt Ideal)) (x1 : (⟨S32x256, .f32⟩ : BufTy).Contents (Elt Ideal)) (x2 : (⟨S512x52, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal))
    (x8 : (⟨S512x512, .f32⟩ : BufTy).Contents (Elt Ideal)) (x9 : (⟨S512, .f32⟩ : BufTy).Contents (Elt Ideal)) (x10 : (⟨S512x768, .f32⟩ : BufTy).Contents (Elt Ideal)) (x11 : (⟨S512, .f32⟩ : BufTy).Contents (Elt Ideal))
    (x12 : (⟨S512x512, .f32⟩ : BufTy).Contents (Elt Ideal)) (x13 : (⟨S512, .f32⟩ : BufTy).Contents (Elt Ideal)) (x14 : (⟨S28x512, .f32⟩ : BufTy).Contents (Elt Ideal)) (x15 : (⟨S28, .f32⟩ : BufTy).Contents (Elt Ideal)) :
    Cert.ReferenceIdeal.Read.val_main_v50 (F := Ideal) x0 x1 x2 x3 x4 x5 x6 x7 x8 x9 x10 x11 x12 x13 x14 x15
      = Cert.RelNet.result ⟨x0, x1, x2, x3, x4, x5, x6, x7, x8, x9, x10, x11, x12, x13, x14, x15⟩ :=
  result_args ⟨x0, x1, x2, x3, x4, x5, x6, x7, x8, x9, x10, x11, x12, x13, x14, x15⟩

end Cert.RelNet.Ref

end
-- ==== Proof.lean ====
/-
  The kernel computes the relational network one batch element per grid point; the reference computes it for all batch
  elements at once, with (batch, pair) flattened to one row axis.  Both are the same function of the sixteen arrays
  over the extended reals (Proof/RelNet.lean): a change of float format is the identity at the exact values, a matrix
  product into a zero accumulator and the host's dot_general are the same finite sums, a reduction along an axis and
  the host's reduce are the same finite sums (or the same fold of max), and a finite sum of extended reals does not
  depend on how the program orders or groups it.  No other law is used; the inputs' finiteness is not needed.

  frame_Kernel and frame_KernelIdeal are the generated frames; frame_ReferenceIdeal is the reference's generated run
  with the result dropped; preserves_Kernel_KernelIdeal has no conjunct (the idealization changed nothing but the
  instance); algebraic_KernelIdeal_ReferenceIdeal puts the kernel's run (Proof/KernelRun.lean: the returned array is
  the network's result of the arguments) beside the reference's run (Proof/Reference.lean: its returned array is the
  network's result of the arguments) at arguments that agree.
-/
import proofs.«155540_j6966436954182_1_alg».proof.Defs
import proofs.«155540_j6966436954182_1_alg».proof.Proof.Gen.Kernel
import proofs.«155540_j6966436954182_1_alg».proof.Proof.Gen.Kernel.Skeleton
import proofs.«155540_j6966436954182_1_alg».proof.Proof.Gen.Kernel.Launch
import proofs.«155540_j6966436954182_1_alg».proof.Proof.Gen.Kernel.Points
import proofs.«155540_j6966436954182_1_alg».proof.Proof.Gen.Kernel.Frame
import proofs.«155540_j6966436954182_1_alg».proof.Proof.Gen.KernelIdeal
import proofs.«155540_j6966436954182_1_alg».proof.Proof.Gen.KernelIdeal.Skeleton
import proofs.«155540_j6966436954182_1_alg».proof.Proof.Gen.KernelIdeal.Launch
import proofs.«155540_j6966436954182_1_alg».proof.Proof.Gen.KernelIdeal.Points
import proofs.«155540_j6966436954182_1_alg».proof.Proof.Gen.KernelIdeal.Frame
import proofs.«155540_j6966436954182_1_alg».proof.Proof.Gen.ReferenceIdeal
import proofs.«155540_j6966436954182_1_alg».proof.Proof.Gen.ReferenceIdeal.Run
import proofs.«155540_j6966436954182_1_alg».proof.Proof.Gen.ReferenceIdeal.Read
import proofs.«155540_j6966436954182_1_alg».proof.Proof.Gen.Pre_finite_inputs
import proofs.«155540_j6966436954182_1_alg».proof.Proof.KernelRun
import proofs.«155540_j6966436954182_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the returned array at the network's result of the arguments, which agree. -/
theorem algebraic : Cert.algebraic_KernelIdeal_ReferenceIdeal := by
  intro m ρ m' ρ' _ hagree
  refine ⟨fun c => Cert.RelNet.result (Cert.RelNet.Ker.argsOf m c), Cert.RelNet.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.RelNet.Ref.result_eq]
  obtain ⟨e0, e1, e2, e3, e4, e5, e6, e7, e8, e9, e10, e11, e12, e13, e14, e15⟩ := hagree c
  rw [e0, e1, e2, e3, e4, e5, e6, e7, e8, e9, e10, e11, e12, e13, e14, e15]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
